-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x3x256 : Shape := ⟨3, ![100000, 3, 256]⟩
abbrev S100000x3x3 : Shape := ⟨3, ![100000, 3, 3]⟩
abbrev S256x512 : Shape := ⟨2, ![256, 512]⟩
abbrev S512x256 : Shape := ⟨2, ![512, 256]⟩
abbrev S256 : Shape := ⟨1, ![256]⟩
abbrev S256x768 : Shape := ⟨2, ![256, 768]⟩
abbrev S768 : Shape := ⟨1, ![768]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x3x256 : S_.BroadcastsInDim S100000x3x256 (![] : Fin 0 → Fin S100000x3x256.rank)
  reducesTo_S100000x3x256_S_d0_1_2 : S100000x3x256.ReducesTo [0, 1, 2] S_
  bcast_S_S100000x3x3 : S_.BroadcastsInDim S100000x3x3 (![] : Fin 0 → Fin S100000x3x3.rank)
  reducesTo_S100000x3x3_S_d0_1_2 : S100000x3x3.ReducesTo [0, 1, 2] S_
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S512x256 .f32) (main_arg5 : FVec F S256 .f32) (main_arg6 : FVec F S256x768 .f32) (main_arg7 : FVec F S768 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x768 .f32 := Host.absf main_arg6
  let main_cst_10 : FVec F S_ .f32 := constant S_ .f32 0x7F800000#32
  let main_v30 : FVec F S256x768 .f32 := broadcastInDim S256x768 ![] bcast_S_S256x768 main_cst_10
  let main_v31 : IVec S256x768 1 := cmpf .olt main_v29 main_v30
  let main_c_11 : IVec S_ 1 := constantI S_ 1 1#1
  let main_v32 : IVec S_ 1 := (fun x v => Host.reduce IntOp.andi x v reducesTo_S256x768_S_d0_1 h_S_) main_v31 main_c_11
  let main_v33 : IVec S_ 1 := andi main_v28 main_v32
  fn_part2 (F := F) main_arg7 main_v33

def fn {F : FTy → Type} [FloatOps F] (main_arg0 : FVec F S100000x256 .f32) (main_arg1 : FVec F S100000x3x256 .f32) (main_arg2 : FVec F S100000x3x3 .f32) (main_arg3 : FVec F S256x512 .f32) (main_arg4 : FVec F S512x256 .f32) (main_arg5 : FVec F S256 .f32) (main_arg6 : FVec F S256x768 .f32) (main_arg7 : FVec F S768 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x3x256 .f32 := Host.absf main_arg1
  let main_cst_0 : FVec F S_ .f32 := constant S_ .f32 0x7F800000#32
  let main_v5 : FVec F S100000x3x256 .f32 := broadcastInDim S100000x3x256 ![] bcast_S_S100000x3x256 main_cst_0
  let main_v6 : IVec S100000x3x256 1 := cmpf .olt main_v4 main_v5
  let main_c_1 : IVec S_ 1 := constantI S_ 1 1#1
  let main_v7 : IVec S_ 1 := (fun x v => Host.reduce IntOp.andi x v reducesTo_S100000x3x256_S_d0_1_2 h_S_) main_v6 main_c_1
  let main_v8 : IVec S_ 1 := andi main_v3 main_v7
  let main_v9 : FVec F S100000x3x3 .f32 := Host.absf main_arg2
  let main_cst_2 : FVec F S_ .f32 := constant S_ .f32 0x7F800000#32
  let main_v10 : FVec F S100000x3x3 .f32 := broadcastInDim S100000x3x3 ![] bcast_S_S100000x3x3 main_cst_2
  let main_v11 : IVec S100000x3x3 1 := cmpf .olt main_v9 main_v10
  let main_c_3 : IVec S_ 1 := constantI S_ 1 1#1
  let main_v12 : IVec S_ 1 := (fun x v => Host.reduce IntOp.andi x v reducesTo_S100000x3x3_S_d0_1_2 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_v13 main_v16
-- ==== Kernel.lean ====
abbrev S100000x256 : Shape := ⟨2, ![100000, 256]⟩
abbrev S100000x3x256 : Shape := ⟨3, ![100000, 3, 256]⟩
abbrev S100000x3x3 : Shape := ⟨3, ![100000, 3, 3]⟩
abbrev S256x512 : Shape := ⟨2, ![256, 512]⟩
abbrev S512x256 : Shape := ⟨2, ![512, 256]⟩
abbrev S256 : Shape := ⟨1, ![256]⟩
abbrev S256x768 : Shape := ⟨2, ![256, 768]⟩
abbrev S768 : Shape := ⟨1, ![768]⟩
abbrev S1000x256 : Shape := ⟨2, ![1000, 256]⟩
abbrev S1000x3x256 : Shape := ⟨3, ![1000, 3, 256]⟩
abbrev S1000x1x256 : Shape := ⟨3, ![1000, 1, 256]⟩
abbrev S1000x512 : Shape := ⟨2, ![1000, 512]⟩
abbrev S1x256 : Shape := ⟨2, ![1, 256]⟩
abbrev S1000x768 : Shape := ⟨2, ![1000, 768]⟩
abbrev S1x768 : Shape := ⟨2, ![1, 768]⟩

abbrev nBuf : Space → Nat
  | .hbm => 10
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S100000x3x3, .f32⟩
  | .hbm, ⟨3, _⟩ => ⟨S256x512, .f32⟩
  | .hbm, ⟨4, _⟩ => ⟨S512x256, .f32⟩
  | .hbm, ⟨5, _⟩ => ⟨S256, .f32⟩
  | .hbm, ⟨6, _⟩ => ⟨S256x768, .f32⟩
  | .hbm, ⟨7, _⟩ => ⟨S768, .f32⟩
  | .hbm, ⟨8, _⟩ => ⟨S100000x256, .f32⟩
  | .hbm, ⟨9, _⟩ => ⟨S100000x3x256, .f32⟩
  | .local _ .vmem, ⟨0, _⟩ => ⟨S1000x256, .f32⟩
  | .local _ .vmem, ⟨1, _⟩ => ⟨S1000x256, .f32⟩
  | .local _ .vmem, ⟨2, _⟩ => ⟨S1000x3x256, .f32⟩
  | .local _ .vmem, ⟨3, _⟩ => ⟨S1000x3x256, .f32⟩
  | .local _ .vmem, ⟨4, _⟩ => ⟨S256x512, .f32⟩
  | .local _ .vmem, ⟨5, _⟩ => ⟨S512x256, .f32⟩
  | .local _ .vmem, ⟨6, _⟩ => ⟨S256, .f32⟩
  | .local _ .vmem, ⟨7, _⟩ => ⟨S256x768, .f32⟩
  | .local _ .vmem, ⟨8, _⟩ => ⟨S768, .f32⟩
  | .local _ .vmem, ⟨9, _⟩ => ⟨S1000x256, .f32⟩
  | .local _ .vmem, ⟨10, _⟩ => ⟨S1000x256, .f32⟩
  | .local _ .vmem, ⟨11, _⟩ => ⟨S1000x3x256, .f32⟩
  | .local _ .vmem, ⟨12, _⟩ => ⟨S1000x3x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1000x256_S1000x256_0_0 : ∀ a, (![0, 0] : Fin 2 → Nat) a + S1000x256.size a ≤ S1000x256.size a
  h_S1000x256 : 0 < S1000x256.numel
  inb_S1000x3x256_S1000x3x256_0_0_0 : ∀ a, (![0, 0, 0] : Fin 3 → Nat) a + S1000x3x256.size a ≤ S1000x3x256.size a
  h_S1000x3x256 : 0 < S1000x3x256.numel
  slices_S1000x3x256_o0_0_0_S1000x1x256 : S1000x3x256.Slices ![0, 0, 0] S1000x1x256
  shapeCasts_S1000x1x256_S1000x256 : S1000x1x256.ShapeCasts S1000x256
  slices_S1000x3x256_o0_1_0_S1000x1x256 : S1000x3x256.Slices ![0, 1, 0] S1000x1x256
  slices_S1000x3x256_o0_2_0_S1000x1x256 : S1000x3x256.Slices ![0, 2, 0] S1000x1x256
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  slices_S1000x512_o0_0_S1000x256 : S1000x512.Slices ![0, 0] S1000x256
  slices_S1000x512_o0_256_S1000x256 : S1000x512.Slices ![0, 256] S1000x256
  concatenates_S1000x256_S1000x256_S1000x512_d1 : Shape.Concatenates [S1000x256, S1000x256] S1000x512 1
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S256x768_S256x768_0_0 : ∀ a, (![0, 0] : Fin 2 → Nat) a + S256x768.size a ≤ S256x768.size a
  h_S256x768 : 0 < S256x768.numel
  inb_S768_S768_0 : ∀ a, (![0] : Fin 1 → Nat) a + S768.size a ≤ S768.size a
  h_S768 : 0 < S768.numel
  shapeCasts_S768_S1x768 : S768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  shapeCasts_S1000x256_S1000x1x256 : S1000x256.ShapeCasts S1000x1x256
  concatenates_S1000x1x256_S1000x1x256_S1000x1x256_S1000x3x256_d1 : Shape.Concatenates [S1000x1x256, S1000x1x256, S1000x1x256] S1000x3x256 1
  dot_S1000x256_S256x512_S1000x512_1_0_0_1_n_n_wf : DotDims.WF S1000x256 S256x512 S1000x512 [1] [0] [0] [1] [] []
  dot_S1000x512_S512x256_S1000x256_1_0_0_1_n_n_wf : DotDims.WF S1000x512 S512x256 S1000x256 [1] [0] [0] [1] [] []
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x3x256.size a ≤ S100000x3x256.size a
  hwx0_1 : ∀ i : grid0.Coords, EltTy.bits .f32 = 32 ∨ (Rect.block (s := S100000x3x256) S1000x3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S100000x256.size a
  hwx0_7 : ∀ i : grid0.Coords, EltTy.bits .f32 = 32 ∨ (Rect.block (s := S100000x256) S1000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x3x256.size a ≤ S100000x3x256.size a
  hwx0_8 : ∀ i : grid0.Coords, EltTy.bits .f32 = 32 ∨ (Rect.block (s := S100000x3x256) S1000x3x256.size (cc0_transform_8 i) (hinb0_8 i)).WholeWords (EltTy.packing .f32)

variable [Facts₀]

def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1000x3x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x3x256 : Shape := ⟨3, ![100000, 3, 256]⟩
abbrev S100000x3x3 : Shape := ⟨3, ![100000, 3, 3]⟩
abbrev S256x512 : Shape := ⟨2, ![256, 512]⟩
abbrev S512x256 : Shape := ⟨2, ![512, 256]⟩
abbrev S256 : Shape := ⟨1, ![256]⟩
abbrev S256x768 : Shape := ⟨2, ![256, 768]⟩
abbrev S768 : Shape := ⟨1, ![768]⟩
abbrev S100000x3x512 : Shape := ⟨3, ![100000, 3, 512]⟩
abbrev S_ : Shape := ⟨0, ![]⟩
abbrev S100000x512 : Shape := ⟨2, ![100000, 512]⟩
abbrev S1x256 : Shape := ⟨2, ![1, 256]⟩
abbrev S100000x768 : Shape := ⟨2, ![100000, 768]⟩
abbrev S1x768 : Shape := ⟨2, ![1, 768]⟩
abbrev S100000x1x256 : Shape := ⟨3, ![100000, 1, 256]⟩

abbrev nBuf : Space → Nat
  | .hbm => 50
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S100000x3x3, .f32⟩
  | .hbm, ⟨3, _⟩ => ⟨S256x512, .f32⟩
  | .hbm, ⟨4, _⟩ => ⟨S512x256, .f32⟩
  | .hbm, ⟨5, _⟩ => ⟨S256, .f32⟩
  | .hbm, ⟨6, _⟩ => ⟨S256x768, .f32⟩
  | .hbm, ⟨7, _⟩ => ⟨S768, .f32⟩
  | .hbm, ⟨8, _⟩ => ⟨S100000x3x512, .f32⟩
  | .hbm, ⟨9, _⟩ => ⟨S100000x3x256, .f32⟩
  | .hbm, ⟨10, _⟩ => ⟨S100000x3x256, .f32⟩
  | .hbm, ⟨11, _⟩ => ⟨S100000x3x256, .f32⟩
  | .hbm, ⟨12, _⟩ => ⟨S_, .f32⟩
  | .hbm, ⟨13, _⟩ => ⟨S100000x256, .f32⟩
  | .hbm, ⟨14, _⟩ => ⟨S100000x256, .f32⟩
  | .hbm, ⟨15, _⟩ => ⟨S100000x3x256, .f32⟩
  | .hbm, ⟨16, _⟩ => ⟨S_, .f32⟩
  | .hbm, ⟨17, _⟩ => ⟨S100000x256, .f32⟩
  | .hbm, ⟨18, _⟩ => ⟨S_, .f32⟩
  | .hbm, ⟨19, _⟩ => ⟨S100000x256, .f32⟩
  | .hbm, ⟨20, _⟩ => ⟨S100000x256, .f32⟩
  | .hbm, ⟨21, _⟩ => ⟨S100000x512, .f32⟩
  | .hbm, ⟨22, _⟩ => ⟨S100000x256, .f32⟩
  | .hbm, ⟨23, _⟩ => ⟨S1x256, .f32⟩
  | .hbm, ⟨24, _⟩ => ⟨S100000x256, .f32⟩
  | .hbm, ⟨25, _⟩ => ⟨S100000x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S100000x768, .f32⟩
  | .hbm, ⟨36, _⟩ => ⟨S1x768, .f32⟩
  | .hbm, ⟨37, _⟩ => ⟨S100000x768, .f32⟩
  | .hbm, ⟨38, _⟩ => ⟨S100000x768, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S100000x1x256, .f32⟩
  | .hbm, ⟨48, _⟩ => ⟨S100000x3x256, .f32⟩
  | .hbm, ⟨49, _⟩ => ⟨S100000x3x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  slices_S100000x3x512_S100000x3x256_0_0_0 : S100000x3x512.Slices ![0, 0, 0] S100000x3x256
  slices_S100000x3x512_S100000x3x256_0_0_256 : S100000x3x512.Slices ![0, 0, 256] S100000x3x256
  reducesTo_S100000x3x256_S100000x256_d1 : S100000x3x256.ReducesTo [1] S100000x256
  h_S_ : 0 < S_.numel
  bcast_S_S100000x256 : S_.BroadcastsInDim S100000x256 (![] : Fin 0 → Fin S100000x256.rank)
  concatenates_S100000x256_S100000x256_S100000x512_d1 : Shape.Concatenates [S100000x256, S100000x256] S100000x512 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  slices_S100000x768_S100000x256_0_0 : S100000x768.Slices ![0, 0] S100000x256
  slices_S100000x768_S100000x256_0_256 : S100000x768.Slices ![0, 256] S100000x256
  slices_S100000x768_S100000x256_0_512 : S100000x768.Slices ![0, 512] S100000x256
  bcast_S100000x256_S100000x1x256_0_2 : S100000x256.BroadcastsInDim S100000x1x256 (![0, 2] : Fin 2 → Fin S100000x1x256.rank)
  bcast_S100000x1x256_S100000x3x256_0_1_2 : S100000x1x256.BroadcastsInDim S100000x3x256 (![0, 1, 2] : Fin 3 → Fin S100000x3x256.rank)
  dot_S100000x3x256_S256x512_S100000x3x512_2_0_01_1_n_n_wf : DotDims.WF S100000x3x256 S256x512 S100000x3x512 [2] [0] [0, 1] [1] [] []
  dot_S100000x512_S512x256_S100000x256_1_0_0_1_n_n_wf : DotDims.WF S100000x512 S512x256 S100000x256 [1] [0] [0] [1] [] []
  dot_S100000x256_S256x768_S100000x768_1_0_0_1_n_n_wf : DotDims.WF S100000x256 S256x768 S100000x768 [1] [0] [0] [1] [] []

variable [Facts₀]

def dot_S100000x3x256_S256x512_S100000x3x512_2_0_01_1_n_n : DotDims S100000x3x256 S256x512 S100000x3x512 where
  lhsContracting := [2]
  rhsContracting := [0]
  lhsNonContracting := [0, 1]
  rhsNonContracting := [1]
  lhsBatch := []
  rhsBatch := []
  wf := dot_S100000x3x256_S256x512_S100000x3x512_2_0_01_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x768_S100000x768_1_0_0_1_n_n : DotDims S100000x256 S256x768 S100000x768 where
  lhsContracting := [1]
  rhsContracting := [0]
  lhsNonContracting := [0]
  rhsNonContracting := [1]
  lhsBatch := []
  rhsBatch := []
  wf := dot_S100000x256_S256x768_S100000x768_1_0_0_1_n_n_wf

class Facts : Prop extends Facts₀ where

variable [Facts]
-- ==== Proof.Spec.lean ====
/- One node of the layer, over the extended reals.

   A node carries a scalar feature row `xr` (256 channels) and a vector feature `vr` (3 spatial components of 256
   channels). With the weights `We` (256 x 512), `W1` (512 x 256), `b1`, `W2` (256 x 768), `b2`:

     * each spatial component is projected by `We` to 512 channels; the first 256 are `c`, the last 256 are `d`;
     * `scalar j = sqrt (c₀ j ² + c₁ j ² + c₂ j ²)`, the norm over the spatial components;
     * `vdot j = (c₀ j · d₀ j + c₁ j · d₁ j + c₂ j · d₂ j) · s`, with `s` the word of 1/16;
     * `hin` is the row `xr` followed by `scalar` (512 channels), `pre1 = hin · W1 + b1`, `act = pre1 · logistic pre1`
       (the SiLU), `xvh = act · W2 + b2` (768 channels, three groups of 256);
     * the scalar update is `(xvh[j] + xvh[256 + j] + vdot j) · r`, with `r` the word of 1/sqrt 2,
       and the vector update of component `c` is `xvh[512 + j] · d_c j`.

   The whole arrays are this map row by row (`dxArr`, `dvecArr`): row `n` of the result depends on row `n` of the two
   feature arrays and on the weights only, which is why a block of rows of the result is the map of that block of rows. -/
import Idealize.ShloMosaic.Lib.ValueIdx
import Idealize.ShloMosaic.PureOps.Ideal.Laws

noncomputable section

open scoped BigOperators

namespace Cert.Spec

open Idealize.ShloMosaic Idealize.ShloMosaic.ValueIdx

variable (We : (⟨2, ![256, 512]⟩ : Shape).Idx → EReal) (W1 : (⟨2, ![512, 256]⟩ : Shape).Idx → EReal)
  (b1 : (⟨1, ![256]⟩ : Shape).Idx → EReal) (W2 : (⟨2, ![256, 768]⟩ : Shape).Idx → EReal)
  (b2 : (⟨1, ![768]⟩ : Shape).Idx → EReal)

/-- Channel `j` of the first half of the 512 projected channels. -/
def lo (j : Fin 256) : Fin 512 := ⟨j.val, by have := j.isLt; omega⟩
/-- Channel `j` of the second half of the 512 projected channels. -/
def hi (j : Fin 256) : Fin 512 := ⟨256 + j.val, by have := j.isLt; omega⟩
/-- Channel `j` of the first, second and third group of the 768 output channels. -/
def g0 (j : Fin 256) : Fin 768 := ⟨j.val, by have := j.isLt; omega⟩
def g1 (j : Fin 256) : Fin 768 := ⟨256 + j.val, by have := j.isLt; omega⟩
def g2 (j : Fin 256) : Fin 768 := ⟨512 + j.val, by have := j.isLt; omega⟩

/-- Channel `k` of one spatial component `v` projected by `We`. -/
def proj (v : Fin 256 → EReal) (k : Fin 512) : EReal := ∑ h : Fin 256, v h * We (ix2 h k)

/-- The norm over the three spatial components of the first projected half. -/
def scalar (vr : Fin 3 → Fin 256 → EReal) (j : Fin 256) : EReal :=
  Ideal.sqrt (proj We (vr 0) (lo j) * proj We (vr 0) (lo j) + proj We (vr 1) (lo j) * proj We (vr 1) (lo j)
    + proj We (vr 2) (lo j) * proj We (vr 2) (lo j))

/-- The inner product over the three spatial components of the two projected halves, scaled by the word of 1/16. -/
def vdot (vr : Fin 3 → Fin 256 → EReal) (j : Fin 256) : EReal :=
  (proj We (vr 0) (lo j) * proj We (vr 0) (hi j) + proj We (vr 1) (lo j) * proj We (vr 1) (hi j)
    + proj We (vr 2) (lo j) * proj We (vr 2) (hi j)) * Ideal.ofBits .f32 0x3D800000#32

/-- The input row of the first dense layer: the scalar features, then the norms. -/
def hin (xr : Fin 256 → EReal) (vr : Fin 3 → Fin 256 → EReal) (k : Fin 512) : EReal :=
  if h : k.val < 256 then xr ⟨k.val, h⟩ else scalar We vr ⟨k.val - 256, by have := k.isLt; omega⟩

/-- The first dense layer before its activation. -/
def pre1 (xr : Fin 256 → EReal) (vr : Fin 3 → Fin 256 → EReal) (j : Fin 256) : EReal :=
  (∑ k : Fin 512, hin We xr vr k * W1 (ix2 k j)) + b1 (ix1 j)

/-- The SiLU of the first dense layer. -/
def act (xr : Fin 256 → EReal) (vr : Fin 3 → Fin 256 → EReal) (j : Fin 256) : EReal :=
  pre1 We W1 b1 xr vr j * Ideal.logistic (pre1 We W1 b1 xr vr j)

/-- The second dense layer: 768 channels. -/
def xvh (xr : Fin 256 → EReal) (vr : Fin 3 → Fin 256 → EReal) (q : Fin 768) : EReal :=
  (∑ j : Fin 256, act We W1 b1 xr vr j * W2 (ix2 j q)) + b2 (ix1 q)

/-- The scalar update of one node. -/
def rowDx (xr : Fin 256 → EReal) (vr : Fin 3 → Fin 256 → EReal) (j : Fin 256) : EReal :=
  (xvh We W1 b1 W2 b2 xr vr (g0 j) + xvh We W1 b1 W2 b2 xr vr (g1 j) + vdot We vr j) * Ideal.ofBits .f32 0x3F3504F3#32

/-- The vector update of one node: component `c`, channel `j`. -/
def rowDvec (xr : Fin 256 → EReal) (vr : Fin 3 → Fin 256 → EReal) (c : Fin 3) (j : Fin 256) : EReal :=
  xvh We W1 b1 W2 b2 xr vr (g2 j) * proj We (vr c) (hi j)

/-- Row `n` of an array of `R` scalar feature rows. -/
def xrow {R : Nat} (x : (⟨2, ![R, 256]⟩ : Shape).Idx → EReal) (n : Fin R) : Fin 256 → EReal := fun h => x (ix2 n h)
/-- Row `n` of an array of `R` vector features. -/
def vrow {R : Nat} (v : (⟨3, ![R, 3, 256]⟩ : Shape).Idx → EReal) (n : Fin R) : Fin 3 → Fin 256 → EReal :=
  fun c h => v (ix3 n c h)

/-- The scalar update of `R` nodes, as an array. -/
def dxArr {R : Nat} (x : (⟨2, ![R, 256]⟩ : Shape).Idx → EReal) (v : (⟨3, ![R, 3, 256]⟩ : Shape).Idx → EReal) :
    (⟨2, ![R, 256]⟩ : Shape).Idx → EReal :=
  fun i => rowDx We W1 b1 W2 b2 (xrow x (i 0)) (vrow v (i 0)) (i 1)

/-- The vector update of `R` nodes, as an array. -/
def dvecArr {R : Nat} (x : (⟨2, ![R, 256]⟩ : Shape).Idx → EReal) (v : (⟨3, ![R, 3, 256]⟩ : Shape).Idx → EReal) :
    (⟨3, ![R, 3, 256]⟩ : Shape).Idx → EReal :=
  fun i => rowDvec We W1 b1 W2 b2 (xrow x (i 0)) (vrow v (i 0)) (i 1) (i 2)

theorem dxArr_ix2 {R : Nat} (x : (⟨2, ![R, 256]⟩ : Shape).Idx → EReal) (v : (⟨3, ![R, 3, 256]⟩ : Shape).Idx → EReal)
    (n : Fin R) (j : Fin 256) :
    dxArr We W1 b1 W2 b2 x v (ix2 n j) = rowDx We W1 b1 W2 b2 (xrow x n) (vrow v n) j := rfl

theorem dvecArr_ix3 {R : Nat} (x : (⟨2, ![R, 256]⟩ : Shape).Idx → EReal) (v : (⟨3, ![R, 3, 256]⟩ : Shape).Idx → EReal)
    (n : Fin R) (c : Fin 3) (j : Fin 256) :
    dvecArr We W1 b1 W2 b2 x v (ix3 n c j) = rowDvec We W1 b1 W2 b2 (xrow x n) (vrow v n) c j := rfl

end Cert.Spec

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.KernelProj.lean ====
/- The projection of each spatial component inside one block of 1000 rows: the three products of a component's
   [1000, 256] slab by the projection weights, read at a row and a channel as the node map's `proj`. -/
import proofs.«144188_j42949673220_1_alg».proof.Proof.Gen.KernelIdeal.Skeleton
import proofs.«144188_j42949673220_1_alg».proof.Proof.Spec
import proofs.«144188_j42949673220_1_alg».proof.Proof.LibDotRead
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen Idealize.ShloMosaic Idealize.ShloMosaic.ValueIdx

/-- Spatial component `o` of the loaded [1000, 3, 256] block, viewed as a [1000, 256] slab: row `p`, channel `h`. -/
theorem comp_apply (x1 : Vec Ideal S1000x3x256 .f32) (o : Nat) (ho : o < 3)
    (hs : S1000x3x256.Slices ![0, o, 0] S1000x1x256) (hc : S1000x1x256.ShapeCasts S1000x256) (p : Fin 1000) (h : Fin 256) :
    shapeCast S1000x256 (extractStridedSlice S1000x1x256 ![0, o, 0] x1 hs) hc (ix2 p h) = x1 (ix3 p ⟨o, ho⟩ h) := by
  refine (shapeCast_apply _ hc (ix2 p h) (ix3 p (0 : Fin 1) h) ?_).trans ?_
  · rw [Shape.rowMajor_val_three, Shape.rowMajor_val_two]
    show (p.val * 1 + 0) * 256 + h.val = p.val * 256 + h.val
    omega
  · exact extractStridedSlice_apply _ x1 hs (ix3 p (0 : Fin 1) h) (ix3 p ⟨o, ho⟩ h) (fun a => match a with
      | ⟨0, _⟩ => by show p.val = 0 + p.val; omega
      | ⟨1, _⟩ => by show o = o + 0; omega
      | ⟨2, _⟩ => by show h.val = 0 + h.val; omega)

/-- A slab of 1000 rows times the projection weights, into the zero accumulator: at row `p` and channel `k` the sum over
    the 256 input channels. -/
theorem slab_proj (A : FVec Ideal S1000x256 .bf16) (B : FVec Ideal S256x512 .bf16) (p : Fin 1000) (k : Fin 512) :
    matmul dot_S1000x256_S256x512_S1000x512_1_0_0_1_n_n none A B (constant S1000x512 .f32 0x00000000#32) (ix2 p k)
      = ∑ h : Fin 256, A (ix2 p h) * B (ix2 h k) := by
  refine (Ideal.matmul_constant_zero_apply _ _ A B (ix2 p k)).trans ?_
  exact Cert.DotRead.sum_contr_plain dot_S1000x256_S256x512_S1000x512_1_0_0_1_n_n_wf A B p k

theorem pay5_apply (x1 : Vec Ideal S1000x3x256 .f32) (x2 : Vec Ideal S256x512 .f32) (p : Fin 1000) (k : Fin 512) :
    k0_pay5 (F := Ideal) x1 x2 (ix2 p k) = Cert.Spec.proj x2 (Cert.Spec.vrow x1 p 0) k := by
  unfold k0_pay5 k0_pay4
  refine (slab_proj _ _ p k).trans ?_
  unfold Cert.Spec.proj Cert.Spec.vrow
  refine Finset.sum_congr rfl fun h _ => ?_
  exact congrArg (fun z => z * x2 (ix2 h k)) (comp_apply x1 0 (by decide) slices_S1000x3x256_o0_0_0_S1000x1x256 shapeCasts_S1000x1x256_S1000x256 p h)

theorem pay6_apply (x1 : Vec Ideal S1000x3x256 .f32) (x2 : Vec Ideal S256x512 .f32) (p : Fin 1000) (k : Fin 512) :
    k0_pay6 (F := Ideal) x1 x2 (ix2 p k) = Cert.Spec.proj x2 (Cert.Spec.vrow x1 p 1) k := by
  unfold k0_pay6 k0_pay4
  refine (slab_proj _ _ p k).trans ?_
  unfold Cert.Spec.proj Cert.Spec.vrow
  refine Finset.sum_congr rfl fun h _ => ?_
  exact congrArg (fun z => z * x2 (ix2 h k)) (comp_apply x1 1 (by decide) slices_S1000x3x256_o0_1_0_S1000x1x256 shapeCasts_S1000x1x256_S1000x256 p h)

theorem pay7_apply (x1 : Vec Ideal S1000x3x256 .f32) (x2 : Vec Ideal S256x512 .f32) (p : Fin 1000) (k : Fin 512) :
    k0_pay7 (F := Ideal) x1 x2 (ix2 p k) = Cert.Spec.proj x2 (Cert.Spec.vrow x1 p 2) k := by
  unfold k0_pay7 k0_pay4
  refine (slab_proj _ _ p k).trans ?_
  unfold Cert.Spec.proj Cert.Spec.vrow
  refine Finset.sum_congr rfl fun h _ => ?_
  exact congrArg (fun z => z * x2 (ix2 h k)) (comp_apply x1 2 (by decide) slices_S1000x3x256_o0_2_0_S1000x1x256 shapeCasts_S1000x1x256_S1000x256 p h)

end Cert.KernelIdeal.Rows

end
-- ==== Proof.KernelDense.lean ====
/- Inside one block of 1000 rows: the halves of the projected channels, the norm and the inner product over the three
   spatial components, the two dense layers with their biases and the SiLU between them, each read at a row and a
   channel as the node map of that row. -/
import proofs.«144188_j42949673220_1_alg».proof.Proof.KernelProj

noncomputable section

open scoped BigOperators

namespace Cert.KernelIdeal.Rows

open Cert.KernelIdeal Cert.KernelIdeal.Gen Idealize.ShloMosaic Idealize.ShloMosaic.ValueIdx

/-! ## The two halves of the 512 projected channels -/

theorem half_lo (y : FVec Ideal S1000x512 .f32) (hs : S1000x512.Slices ![0, 0] S1000x256) (p : Fin 1000) (j : Fin 256) :
    extractStridedSlice S1000x256 ![0, 0] y hs (ix2 p j) = y (ix2 p (Cert.Spec.lo j)) :=
  extractStridedSlice_apply _ y hs (ix2 p j) (ix2 p (Cert.Spec.lo j)) (fun a => match a with
    | ⟨0, _⟩ => by show p.val = 0 + p.val; omega
    | ⟨1, _⟩ => by show j.val = 0 + j.val; omega)

theorem half_hi (y : FVec Ideal S1000x512 .f32) (hs : S1000x512.Slices ![0, 256] S1000x256) (p : Fin 1000) (j : Fin 256) :
    extractStridedSlice S1000x256 ![0, 256] y hs (ix2 p j) = y (ix2 p (Cert.Spec.hi j)) :=
  extractStridedSlice_apply _ y hs (ix2 p j) (ix2 p (Cert.Spec.hi j)) (fun a => match a with
    | ⟨0, _⟩ => by show p.val = 0 + p.val; omega
    | ⟨1, _⟩ => by show 256 + j.val = 256 + j.val; omega)

theorem pay8_apply (x1 : Vec Ideal S1000x3x256 .f32) (x2 : Vec Ideal S256x512 .f32) (p : Fin 1000) (j : Fin 256) :
    k0_pay8 (F := Ideal) x1 x2 (ix2 p j) = Cert.Spec.proj x2 (Cert.Spec.vrow x1 p 0) (Cert.Spec.lo j) := by
  unfold k0_pay8; exact (half_lo _ _ p j).trans (pay5_apply x1 x2 p _)
theorem pay9_apply (x1 : Vec Ideal S1000x3x256 .f32) (x2 : Vec Ideal S256x512 .f32) (p : Fin 1000) (j : Fin 256) :
    k0_pay9 (F := Ideal) x1 x2 (ix2 p j) = Cert.Spec.proj x2 (Cert.Spec.vrow x1 p 0) (Cert.Spec.hi j) := by
  unfold k0_pay9; exact (half_hi _ _ p j).trans (pay5_apply x1 x2 p _)
theorem pay10_apply (x1 : Vec Ideal S1000x3x256 .f32) (x2 : Vec Ideal S256x512 .f32) (p : Fin 1000) (j : Fin 256) :
    k0_pay10 (F := Ideal) x1 x2 (ix2 p j) = Cert.Spec.proj x2 (Cert.Spec.vrow x1 p 1) (Cert.Spec.lo j) := by
  unfold k0_pay10; exact (half_lo _ _ p j).trans (pay6_apply x1 x2 p _)
theorem pay11_apply (x1 : Vec Ideal S1000x3x256 .f32) (x2 : Vec Ideal S256x512 .f32) (p : Fin 1000) (j : Fin 256) :
    k0_pay11 (F := Ideal) x1 x2 (ix2 p j) = Cert.Spec.proj x2 (Cert.Spec.vrow x1 p 1) (Cert.Spec.hi j) := by
  unfold k0_pay11; exact (half_hi _ _ p j).trans (pay6_apply x1 x2 p _)
theorem pay12_apply (x1 : Vec Ideal S1000x3x256 .f32) (x2 : Vec Ideal S256x512 .f32) (p : Fin 1000) (j : Fin 256) :
    k0_pay12 (F := Ideal) x1 x2 (ix2 p j) = Cert.Spec.proj x2 (Cert.Spec.vrow x1 p 2) (Cert.Spec.lo j) := by
  unfold k0_pay12; exact (half_lo _ _ p j).trans (pay7_apply x1 x2 p _)
theorem pay13_apply (x1 : Vec Ideal S1000x3x256 .f32) (x2 : Vec Ideal S256x512 .f32) (p : Fin 1000) (j : Fin 256) :
    k0_pay13 (F := Ideal) x1 x2 (ix2 p j) = Cert.Spec.proj x2 (Cert.Spec.vrow x1 p 2) (Cert.Spec.hi j) := by
  unfold k0_pay13; exact (half_hi _ _ p j).trans (pay7_apply x1 x2 p _)

/-! ## The norm and the inner product over the spatial components -/

theorem norm_apply (x1 : Vec Ideal S1000x3x256 .f32) (x2 : Vec Ideal S256x512 .f32) (p : Fin 1000) (j : Fin 256) :
    sqrt (addf (addf (mulf (k0_pay8 (F := Ideal) x1 x2) (k0_pay8 x1 x2)) (mulf (k0_pay10 x1 x2) (k0_pay10 x1 x2)))
        (mulf (k0_pay12 x1 x2) (k0_pay12 x1 x2))) (ix2 p j)
      = Cert.Spec.scalar x2 (Cert.Spec.vrow x1 p) j := by
  show Ideal.sqrt (k0_pay8 (F := Ideal) x1 x2 (ix2 p j) * k0_pay8 (F := Ideal) x1 x2 (ix2 p j)
      + k0_pay10 (F := Ideal) x1 x2 (ix2 p j) * k0_pay10 (F := Ideal) x1 x2 (ix2 p j)
      + k0_pay12 (F := Ideal) x1 x2 (ix2 p j) * k0_pay12 (F := Ideal) x1 x2 (ix2 p j)) = _
  rw [pay8_apply, pay10_apply, pay12_apply]
  rfl

theorem pay14_apply (x1 : Vec Ideal S1000x3x256 .f32) (x2 : Vec Ideal S256x512 .f32) (p : Fin 1000) (j : Fin 256) :
    k0_pay14 (F := Ideal) x1 x2 (ix2 p j) = Cert.Spec.vdot x2 (Cert.Spec.vrow x1 p) j := by
  unfold k0_pay14
  show (k0_pay8 (F := Ideal) x1 x2 (ix2 p j) * k0_pay9 (F := Ideal) x1 x2 (ix2 p j)
      + k0_pay10 (F := Ideal) x1 x2 (ix2 p j) * k0_pay11 (F := Ideal) x1 x2 (ix2 p j)
      + k0_pay12 (F := Ideal) x1 x2 (ix2 p j) * k0_pay13 (F := Ideal) x1 x2 (ix2 p j)) * Ideal.ofBits .f32 0x3D800000#32 = _
  rw [pay8_apply, pay9_apply, pay10_apply, pay11_apply, pay12_apply, pay13_apply]
  rfl

/-! ## The first dense layer's input row: the scalar features, then the norms -/

theorem hin_apply (x0 : Vec Ideal S1000x256 .f32) (x1 : Vec Ideal S1000x3x256 .f32) (x2 : Vec Ideal S256x512 .f32)
    (hcat : Shape.Concatenates [S1000x256, S1000x256] S1000x512 1) (p : Fin 1000) (k : Fin 512) :
    concatenate S1000x512 1 [⟨S1000x256, x0⟩, ⟨S1000x256, sqrt (addf (addf (mulf (k0_pay8 (F := Ideal) x1 x2) (k0_pay8 x1 x2))
        (mulf (k0_pay10 x1 x2) (k0_pay10 x1 x2))) (mulf (k0_pay12 x1 x2) (k0_pay12 x1 x2)))⟩] hcat (ix2 p k)
      = Cert.Spec.hin x2 (Cert.Spec.xrow x0 p) (Cert.Spec.vrow x1 p) k := by
  unfold Cert.Spec.hin
  by_cases hk : k.val < 256
  · rw [dif_pos hk]
    exact concatenate_pair_apply_left _ x0 _ hcat (ix2 p k) rfl (ix2 p ⟨k.val, hk⟩)
      (fun b => match b with | ⟨0, _⟩ => rfl | ⟨1, _⟩ => rfl)
  · rw [dif_neg hk]
    refine (concatenate_pair_apply_right _ x0 _ hcat (ix2 p k) rfl rfl
      (ix2 p ⟨k.val - 256, by have := k.isLt; omega⟩) ?_ ?_).trans (norm_apply x1 x2 p _)
    · intro b hb
      match b with
      | ⟨0, _⟩ => rfl
      | ⟨1, _⟩ => exact absurd rfl hb
    · show (k.val - 256) + 256 = k.val
      omega

/-! ## The dense layers -/

theorem dense512 (A : FVec Ideal S1000x512 .bf16) (B : FVec Ideal S512x256 .bf16) (p : Fin 1000) (j : Fin 256) :
    matmul dot_S1000x512_S512x256_S1000x256_1_0_0_1_n_n none A B (constant S1000x256 .f32 0x00000000#32) (ix2 p j)
      = ∑ k : Fin 512, A (ix2 p k) * B (ix2 k j) := by
  refine (Ideal.matmul_constant_zero_apply _ _ A B (ix2 p j)).trans ?_
  exact Cert.DotRead.sum_contr_plain dot_S1000x512_S512x256_S1000x256_1_0_0_1_n_n_wf A B p j

theorem dense256 (A : FVec Ideal S1000x256 .bf16) (B : FVec Ideal S256x768 .bf16) (p : Fin 1000) (q : Fin 768) :
    matmul dot_S1000x256_S256x768_S1000x768_1_0_0_1_n_n none A B (constant S1000x768 .f32 0x00000000#32) (ix2 p q)
      = ∑ j : Fin 256, A (ix2 p j) * B (ix2 j q) := by
  refine (Ideal.matmul_constant_zero_apply _ _ A B (ix2 p q)).trans ?_
  exact Cert.DotRead.sum_contr_plain dot_S1000x256_S256x768_S1000x768_1_0_0_1_n_n_wf A B p q

/-- A bias row of 256 channels laid over the 1000 rows of a block. -/
theorem bias256 (b : Vec Ideal S256 .f32) (hc : S256.ShapeCasts S1x256) (hb : S1x256.Broadcasts S1000x256)
    (p : Fin 1000) (j : Fin 256) :
    broadcastTo S1000x256 (shapeCast S1x256 b hc) hb (ix2 p j) = b (ix1 j) := by
  refine (broadcastTo_apply _ hb (ix2 p j) (ix2 (0 : Fin 1) j) ?_).trans ?_
  · intro a
    match a with
    | ⟨0, _⟩ => first | rfl | simp
    | ⟨1, _⟩ => first | rfl | simp
  · refine shapeCast_apply b hc (ix2 (0 : Fin 1) j) (ix1 j) ?_
    rw [Shape.rowMajor_val_one, Shape.rowMajor_val_two]
    show j.val = 0 * 256 + j.val
    omega

/-- A bias row of 768 channels laid over the 1000 rows of a block. -/
theorem bias768 (b : Vec Ideal S768 .f32) (hc : S768.ShapeCasts S1x768) (hb : S1x768.Broadcasts S1000x768)
    (p : Fin 1000) (q : Fin 768) :
    broadcastTo S1000x768 (shapeCast S1x768 b hc) hb (ix2 p q) = b (ix1 q) := by
  refine (broadcastTo_apply _ hb (ix2 p q) (ix2 (0 : Fin 1) q) ?_).trans ?_
  · intro a
    match a with
    | ⟨0, _⟩ => first | rfl | simp
    | ⟨1, _⟩ => first | rfl | simp
  · refine shapeCast_apply b hc (ix2 (0 : Fin 1) q) (ix1 q) ?_
    rw [Shape.rowMajor_val_one, Shape.rowMajor_val_two]
    show q.val = 0 * 768 + q.val
    omega

/-- The first dense layer before its activation, at row `p`, channel `j`. -/
theorem pay15_apply (x0 : Vec Ideal S1000x256 .f32) (x1 : Vec Ideal S1000x3x256 .f32) (x2 : Vec Ideal S256x512 .f32)
    (x3 : Vec Ideal S512x256 .f32) (x4 : Vec Ideal S256 .f32) (p : Fin 1000) (j : Fin 256) :
    k0_pay15 (F := Ideal) x0 x1 x2 x3 x4 (ix2 p j)
      = Cert.Spec.pre1 x2 x3 x4 (Cert.Spec.xrow x0 p) (Cert.Spec.vrow x1 p) j := by
  unfold k0_pay15 Cert.Spec.pre1
  refine (addf_apply _ _ (ix2 p j)).trans ?_
  refine congrArg₂ (· + ·) ?_ (bias256 x4 _ _ p j)
  refine (dense512 _ _ p j).trans (Finset.sum_congr rfl fun k _ => ?_)
  exact congrArg (fun z => z * x3 (ix2 k j)) (hin_apply x0 x1 x2 concatenates_S1000x256_S1000x256_S1000x512_d1 p k)

/-- The second dense layer over the SiLU of any [1000, 256] block `v`, at row `p`, channel `q`. -/
theorem pay1_apply (v : FVec Ideal S1000x256 .f32) (x5 : Vec Ideal S256x768 .f32) (x6 : Vec Ideal S768 .f32)
    (p : Fin 1000) (q : Fin 768) :
    k0_pay1 (F := Ideal) v x5 x6 (ix2 p q)
      = (∑ j : Fin 256, (v (ix2 p j) * Ideal.logistic (v (ix2 p j))) * x5 (ix2 j q)) + x6 (ix1 q) := by
  unfold k0_pay1
  refine (addf_apply _ _ (ix2 p q)).trans ?_
  refine congrArg₂ (· + ·) ?_ (bias768 x6 _ _ p q)
  exact dense256 _ _ p q

/-- The 768 output channels of row `p`. -/
theorem xvh_apply (x0 : Vec Ideal S1000x256 .f32) (x1 : Vec Ideal S1000x3x256 .f32) (x2 : Vec Ideal S256x512 .f32)
    (x3 : Vec Ideal S512x256 .f32) (x4 : Vec Ideal S256 .f32) (x5 : Vec Ideal S256x768 .f32) (x6 : Vec Ideal S768 .f32)
    (p : Fin 1000) (q : Fin 768) :
    k0_pay1 (F := Ideal) (k0_pay15 x0 x1 x2 x3 x4) x5 x6 (ix2 p q)
      = Cert.Spec.xvh x2 x3 x4 x5 x6 (Cert.Spec.xrow x0 p) (Cert.Spec.vrow x1 p) q := by
  refine (pay1_apply _ x5 x6 p q).trans ?_
  unfold Cert.Spec.xvh Cert.Spec.act
  refine congrArg (· + x6 (ix1 q)) (Finset.sum_congr rfl fun j _ => ?_)
  rw [pay15_apply]

end Cert.KernelIdeal.Rows

end
-- ==== Proof.KernelRow.lean ====
/- The kernel body's two stored blocks, read row by row: a block of 1000 rows goes to the node map of its rows.
   The scalar-update block is (xvh[j] + xvh[256 + j] + vdot j) times the word of 1/sqrt 2; the vector-update block stacks,
   for the three spatial components, xvh[512 + j] times the second projected half of the component. -/
import proofs.«144188_j42949673220_1_alg».proof.Proof.Gen.KernelIdeal.Frame
import proofs.«144188_j42949673220_1_alg».proof.Proof.KernelDense

noncomputable section

open scoped BigOperators

namespace Cert.KernelIdeal.Rows

open Cert.KernelIdeal Cert.KernelIdeal.Gen Idealize.ShloMosaic Idealize.ShloMosaic.ValueIdx

theorem zero_off1 : (![0] : Fin 1 → Nat) = fun _ => 0 := funext fun a => by fin_cases a; rfl
theorem zero_off2 : (![0, 0] : Fin 2 → Nat) = fun _ => 0 := funext fun a => by fin_cases a <;> rfl
theorem zero_off3 : (![0, 0, 0] : Fin 3 → Nat) = fun _ => 0 := funext fun a => by fin_cases a <;> rfl

/-! ## The three groups of the 768 output channels -/

theorem group0 (y : FVec Ideal S1000x768 .f32) (hs : S1000x768.Slices ![0, 0] S1000x256) (p : Fin 1000) (j : Fin 256) :
    extractStridedSlice S1000x256 ![0, 0] y hs (ix2 p j) = y (ix2 p (Cert.Spec.g0 j)) :=
  extractStridedSlice_apply _ y hs (ix2 p j) (ix2 p (Cert.Spec.g0 j)) (fun a => match a with
    | ⟨0, _⟩ => by show p.val = 0 + p.val; omega
    | ⟨1, _⟩ => by show j.val = 0 + j.val; omega)

theorem group1 (y : FVec Ideal S1000x768 .f32) (hs : S1000x768.Slices ![0, 256] S1000x256) (p : Fin 1000) (j : Fin 256) :
    extractStridedSlice S1000x256 ![0, 256] y hs (ix2 p j) = y (ix2 p (Cert.Spec.g1 j)) :=
  extractStridedSlice_apply _ y hs (ix2 p j) (ix2 p (Cert.Spec.g1 j)) (fun a => match a with
    | ⟨0, _⟩ => by show p.val = 0 + p.val; omega
    | ⟨1, _⟩ => by show 256 + j.val = 256 + j.val; omega)

theorem group2 (y : FVec Ideal S1000x768 .f32) (hs : S1000x768.Slices ![0, 512] S1000x256) (p : Fin 1000) (j : Fin 256) :
    extractStridedSlice S1000x256 ![0, 512] y hs (ix2 p j) = y (ix2 p (Cert.Spec.g2 j)) :=
  extractStridedSlice_apply _ y hs (ix2 p j) (ix2 p (Cert.Spec.g2 j)) (fun a => match a with
    | ⟨0, _⟩ => by show p.val = 0 + p.val; omega
    | ⟨1, _⟩ => by show 512 + j.val = 512 + j.val; omega)

/-! ## The stack of the three component slabs -/

/-- A [1000, 256] slab given a unit middle axis. -/
theorem slab_up (v : FVec Ideal S1000x256 .f32) (hc : S1000x256.ShapeCasts S1000x1x256) (p : Fin 1000) (j : Fin 256) :
    shapeCast S1000x1x256 v hc (ix3 p (0 : Fin 1) j) = v (ix2 p j) := by
  refine shapeCast_apply v hc (ix3 p (0 : Fin 1) j) (ix2 p j) ?_
  rw [Shape.rowMajor_val_two, Shape.rowMajor_val_three]
  show p.val * 256 + j.val = (p.val * 1 + 0) * 256 + j.val
  omega

/-- Three slabs stacked along the middle axis: component `c` reads slab `c`. -/
theorem stack3_apply (a0 a1 a2 : FVec Ideal S1000x1x256 .f32)
    (h : Shape.Concatenates [S1000x1x256, S1000x1x256, S1000x1x256] S1000x3x256 1) (p : Fin 1000) (c : Fin 3) (j : Fin 256) :
    concatenate S1000x3x256 1 [⟨S1000x1x256, a0⟩, ⟨S1000x1x256, a1⟩, ⟨S1000x1x256, a2⟩] h (ix3 p c j)
      = (![a0, a1, a2] c) (ix3 p (0 : Fin 1) j) := by
  have hi : ∀ b : Fin S1000x1x256.rank, b.cast (rfl : S1000x1x256.rank = S1000x3x256.rank) ≠ (1 : Fin 3) →
      ((ix3 p (0 : Fin 1) j : S1000x1x256.Idx) b).val = ((ix3 p c j : S1000x3x256.Idx) (b.cast rfl)).val := by
    intro b hb
    match b with
    | ⟨0, _⟩ => rfl
    | ⟨1, _⟩ => exact absurd rfl hb
    | ⟨2, _⟩ => rfl
  fin_cases c
  · exact concatenate_apply_piece (t := S1000x3x256) 1 [⟨S1000x1x256, a0⟩, ⟨S1000x1x256, a1⟩, ⟨S1000x1x256, a2⟩] h _ 0 (by simp) S1000x1x256 a0 rfl rfl 0 rfl (ix3 p (0 : Fin 1) j) hi rfl
  · exact concatenate_apply_piece (t := S1000x3x256) 1 [⟨S1000x1x256, a0⟩, ⟨S1000x1x256, a1⟩, ⟨S1000x1x256, a2⟩] h _ 1 (by simp) S1000x1x256 a1 rfl rfl 1 rfl (ix3 p (0 : Fin 1) j) hi rfl
  · exact concatenate_apply_piece (t := S1000x3x256) 1 [⟨S1000x1x256, a0⟩, ⟨S1000x1x256, a1⟩, ⟨S1000x1x256, a2⟩] h _ 2 (by simp) S1000x1x256 a2 rfl rfl 2 rfl (ix3 p (0 : Fin 1) j) hi rfl

/-! ## The two stored blocks -/

/-- What the body leaves in the scalar-update block: the node map of the block's rows. -/
theorem out0_7_eq (x0 : Vec Ideal S1000x256 .f32) (x1 : Vec Ideal S1000x3x256 .f32) (x2 : Vec Ideal S256x512 .f32)
    (x3 : Vec Ideal S512x256 .f32) (x4 : Vec Ideal S256 .f32) (x5 : Vec Ideal S256x768 .f32) (x6 : Vec Ideal S768 .f32) :
    out0_7 (F := Ideal) x0 x1 x2 x3 x4 x5 x6 = Cert.Spec.dxArr x2 x3 x4 x5 x6 x0 x1 := by
  unfold out0_7
  rw [View.canon_unit_zero zero_off2]
  simp only [View.ld_unit_zero (S := S1000x256) zero_off2, View.ld_unit_zero (S := S1000x3x256) zero_off3,
    View.ld_unit_zero (S := S256x512) zero_off2, View.ld_unit_zero (S := S512x256) zero_off2,
    View.ld_unit_zero (S := S256) zero_off1, View.ld_unit_zero (S := S256x768) zero_off2,
    View.ld_unit_zero (S := S768) zero_off1]
  funext i
  obtain ⟨p, j, rfl⟩ : ∃ (p : Fin 1000) (j : Fin 256), i = ix2 p j := ⟨i 0, i 1, eq_ix2 i⟩
  refine Eq.trans ?_ (Cert.Spec.dxArr_ix2 x2 x3 x4 x5 x6 x0 x1 p j).symm
  unfold k0_pay2 Cert.Spec.rowDx
  refine (mulf_apply _ _ (ix2 p j)).trans ?_
  refine congrArg₂ (· * ·) ?_ rfl
  refine (addf_apply _ _ (ix2 p j)).trans ?_
  refine congrArg₂ (· + ·) ?_ (pay14_apply x1 x2 p j)
  refine (addf_apply _ _ (ix2 p j)).trans ?_
  refine congrArg₂ (· + ·) ?_ ?_
  · exact (group0 _ _ p j).trans (xvh_apply x0 x1 x2 x3 x4 x5 x6 p _)
  · exact (group1 _ _ p j).trans (xvh_apply x0 x1 x2 x3 x4 x5 x6 p _)

/-- What the body leaves in the vector-update block: the node map of the block's rows. -/
theorem out0_8_eq (x0 : Vec Ideal S1000x256 .f32) (x1 : Vec Ideal S1000x3x256 .f32) (x2 : Vec Ideal S256x512 .f32)
    (x3 : Vec Ideal S512x256 .f32) (x4 : Vec Ideal S256 .f32) (x5 : Vec Ideal S256x768 .f32) (x6 : Vec Ideal S768 .f32) :
    out0_8 (F := Ideal) x0 x1 x2 x3 x4 x5 x6 = Cert.Spec.dvecArr x2 x3 x4 x5 x6 x0 x1 := by
  unfold out0_8
  rw [View.canon_unit_zero zero_off3]
  simp only [View.ld_unit_zero (S := S1000x256) zero_off2, View.ld_unit_zero (S := S1000x3x256) zero_off3,
    View.ld_unit_zero (S := S256x512) zero_off2, View.ld_unit_zero (S := S512x256) zero_off2,
    View.ld_unit_zero (S := S256) zero_off1, View.ld_unit_zero (S := S256x768) zero_off2,
    View.ld_unit_zero (S := S768) zero_off1]
  funext i
  obtain ⟨p, c, j, rfl⟩ : ∃ (p : Fin 1000) (c : Fin 3) (j : Fin 256), i = ix3 p c j := ⟨i 0, i 1, i 2, eq_ix3 i⟩
  refine Eq.trans ?_ (Cert.Spec.dvecArr_ix3 x2 x3 x4 x5 x6 x0 x1 p c j).symm
  unfold k0_pay3 Cert.Spec.rowDvec
  refine (stack3_apply _ _ _ _ p c j).trans ?_
  fin_cases c
  · refine (slab_up _ _ p j).trans ((mulf_apply _ _ (ix2 p j)).trans ?_)
    exact congrArg₂ (· * ·) ((group2 _ _ p j).trans (xvh_apply x0 x1 x2 x3 x4 x5 x6 p _)) (pay9_apply x1 x2 p j)
  · refine (slab_up _ _ p j).trans ((mulf_apply _ _ (ix2 p j)).trans ?_)
    exact congrArg₂ (· * ·) ((group2 _ _ p j).trans (xvh_apply x0 x1 x2 x3 x4 x5 x6 p _)) (pay11_apply x1 x2 p j)
  · refine (slab_up _ _ p j).trans ((mulf_apply _ _ (ix2 p j)).trans ?_)
    exact congrArg₂ (· * ·) ((group2 _ _ p j).trans (xvh_apply x0 x1 x2 x3 x4 x5 x6 p _)) (pay13_apply x1 x2 p j)

end Cert.KernelIdeal.Rows

end
-- ==== Proof.Blocks.lean ====
/- From blocks to the arrays.

   The grid has 100 points. At point `t` the pipeline hands the body rows `1000 t … 1000 t + 999` of the two feature
   arrays and the whole of each weight array, and writes the two blocks the body leaves back to the same rows of the
   two result arrays. The body's blocks are the node map of the rows it was handed; the node map of the whole arrays is
   row by row, so the block written at point `t` is rows `1000 t … 1000 t + 999` of the node map of the whole arrays.
   Every row `n` lies in the block of point `n / 1000`, so after the last point each result array is the node map of
   the argument arrays, and no argument array has changed. -/
import proofs.«144188_j42949673220_1_alg».proof.Proof.Gen.KernelIdeal.Value
import proofs.«144188_j42949673220_1_alg».proof.Proof.Gen.KernelIdeal.Frame
import proofs.«144188_j42949673220_1_alg».proof.Proof.KernelRow
import proofs.«144188_j42949673220_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## Where each window's block sits -/

/-- The printed index maps over the 100 points: the two feature windows and the two result windows sit at block row
    `t`, column block 0; every weight window sits at block 0 on every axis. -/
theorem block_index : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = t.val ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-! ## Each input block as rows of its array -/

/-- The scalar-feature block at point `t`, entry `(r, h)`, is entry `(1000 t + r, h)` of the scalar-feature array. -/
theorem x_block_apply (c : Dev nD) (t : Fin cfg0.N) (y : S1000x256.Idx) (k : S100000x256.Idx)
    (hk0 : (k 0).val = 1000 * t.val + (y 0).val) (hk1 : (k 1).val = (y 1).val) :
    (iblk m c 0 t : Vec Ideal S1000x256 .f32) y = (V m c main_arg0 : S100000x256.Idx → Elt Ideal .f32) k := by
  obtain ⟨⟨e0, e1⟩, -⟩ := block_index t
  unfold iblk
  rw [View.read_apply]
  show V m c main_arg0 _ = V m c main_arg0 _
  congr 1
  funext a
  apply Fin.ext
  match a with
  | ⟨0, _⟩ => show win0_0.index t 0 * 1000 + 1 * (y 0).val = (k 0).val; rw [e0, hk0]; omega
  | ⟨1, _⟩ => show win0_0.index t 1 * 256 + 1 * (y 1).val = (k 1).val; rw [e1, hk1]; omega

/-- The vector-feature block at point `t`, entry `(r, s, h)`, is entry `(1000 t + r, s, h)` of the vector-feature array. -/
theorem v_block_apply (c : Dev nD) (t : Fin cfg0.N) (y : S1000x3x256.Idx) (k : S100000x3x256.Idx)
    (hk0 : (k 0).val = 1000 * t.val + (y 0).val) (hk1 : (k 1).val = (y 1).val) (hk2 : (k 2).val = (y 2).val) :
    (iblk m c 1 t : Vec Ideal S1000x3x256 .f32) y = (V m c main_arg1 : S100000x3x256.Idx → Elt Ideal .f32) k := by
  obtain ⟨-, ⟨e0, e1, e2⟩, -⟩ := block_index t
  unfold iblk
  rw [View.read_apply]
  show V m c main_arg1 _ = V m c main_arg1 _
  congr 1
  funext a
  apply Fin.ext
  match a with
  | ⟨0, _⟩ => show win0_1.index t 0 * 1000 + 1 * (y 0).val = (k 0).val; rw [e0, hk0]; omega
  | ⟨1, _⟩ => show win0_1.index t 1 * 3 + 1 * (y 1).val = (k 1).val; rw [e1, hk1]; omega
  | ⟨2, _⟩ => show win0_1.index t 2 * 256 + 1 * (y 2).val = (k 2).val; rw [e2, hk2]; omega

/-- Every weight window's block is the whole weight array: the projection. -/
theorem We_block (c : Dev nD) (t : Fin cfg0.N) :
    (iblk m c 2 t : Vec Ideal S256x512 .f32) = (V m c main_arg3 : S256x512.Idx → Elt Ideal .f32) := by
  obtain ⟨-, -, ⟨e0, e1⟩, -⟩ := block_index t
  funext y
  unfold iblk
  rw [View.read_apply]
  show V m c main_arg3 _ = V m c main_arg3 y
  congr 1
  funext a
  apply Fin.ext
  match a with
  | ⟨0, _⟩ => show win0_2.index t 0 * 256 + 1 * (y 0).val = (y 0).val; rw [e0]; omega
  | ⟨1, _⟩ => show win0_2.index t 1 * 512 + 1 * (y 1).val = (y 1).val; rw [e1]; omega

/-- The first dense layer's matrix. -/
theorem W1_block (c : Dev nD) (t : Fin cfg0.N) :
    (iblk m c 3 t : Vec Ideal S512x256 .f32) = (V m c main_arg4 : S512x256.Idx → Elt Ideal .f32) := by
  obtain ⟨-, -, -, ⟨e0, e1⟩, -⟩ := block_index t
  funext y
  unfold iblk
  rw [View.read_apply]
  show V m c main_arg4 _ = V m c main_arg4 y
  congr 1
  funext a
  apply Fin.ext
  match a with
  | ⟨0, _⟩ => show win0_3.index t 0 * 512 + 1 * (y 0).val = (y 0).val; rw [e0]; omega
  | ⟨1, _⟩ => show win0_3.index t 1 * 256 + 1 * (y 1).val = (y 1).val; rw [e1]; omega

/-- The first dense layer's bias. -/
theorem b1_block (c : Dev nD) (t : Fin cfg0.N) :
    (iblk m c 4 t : Vec Ideal S256 .f32) = (V m c main_arg5 : S256.Idx → Elt Ideal .f32) := by
  obtain ⟨-, -, -, -, e0, -⟩ := block_index t
  funext y
  unfold iblk
  rw [View.read_apply]
  show V m c main_arg5 _ = V m c main_arg5 y
  congr 1
  funext a
  apply Fin.ext
  match a with
  | ⟨0, _⟩ => show win0_4.index t 0 * 256 + 1 * (y 0).val = (y 0).val; rw [e0]; omega

/-- The second dense layer's matrix. -/
theorem W2_block (c : Dev nD) (t : Fin cfg0.N) :
    (iblk m c 5 t : Vec Ideal S256x768 .f32) = (V m c main_arg6 : S256x768.Idx → Elt Ideal .f32) := by
  obtain ⟨-, -, -, -, -, ⟨e0, e1⟩, -⟩ := block_index t
  funext y
  unfold iblk
  rw [View.read_apply]
  show V m c main_arg6 _ = V m c main_arg6 y
  congr 1
  funext a
  apply Fin.ext
  match a with
  | ⟨0, _⟩ => show win0_5.index t 0 * 256 + 1 * (y 0).val = (y 0).val; rw [e0]; omega
  | ⟨1, _⟩ => show win0_5.index t 1 * 768 + 1 * (y 1).val = (y 1).val; rw [e1]; omega

/-- The second dense layer's bias. -/
theorem b2_block (c : Dev nD) (t : Fin cfg0.N) :
    (iblk m c 6 t : Vec Ideal S768 .f32) = (V m c main_arg7 : S768.Idx → Elt Ideal .f32) := by
  obtain ⟨-, -, -, -, -, -, e0, -⟩ := block_index t
  funext y
  unfold iblk
  rw [View.read_apply]
  show V m c main_arg7 _ = V m c main_arg7 y
  congr 1
  funext a
  apply Fin.ext
  match a with
  | ⟨0, _⟩ => show win0_6.index t 0 * 768 + 1 * (y 0).val = (y 0).val; rw [e0]; omega

/-- Row `r` of the scalar-feature block at point `t` is row `1000 t + r` of the scalar-feature array. -/
theorem xrow_block (c : Dev nD) (t : Fin cfg0.N) (r : Fin 1000) (n : Fin 100000) (hn : n.val = 1000 * t.val + r.val) :
    Cert.Spec.xrow (iblk m c 0 t : Vec Ideal S1000x256 .f32) r = Cert.Spec.xrow (V m c main_arg0 : S100000x256.Idx → Elt Ideal .f32) n :=
  funext fun h => x_block_apply m c t (ix2 r h) (ix2 n h) hn rfl

/-- Row `r` of the vector-feature block at point `t` is row `1000 t + r` of the vector-feature array. -/
theorem vrow_block (c : Dev nD) (t : Fin cfg0.N) (r : Fin 1000) (n : Fin 100000) (hn : n.val = 1000 * t.val + r.val) :
    Cert.Spec.vrow (iblk m c 1 t : Vec Ideal S1000x3x256 .f32) r = Cert.Spec.vrow (V m c main_arg1 : S100000x3x256.Idx → Elt Ideal .f32) n :=
  funext fun s => funext fun h => v_block_apply m c t (ix3 r s h) (ix3 n s h) hn rfl rfl

/-! ## What a point writes back -/

/-- The scalar update of the blocks at point `t`, at block entry `(r, j)`, is the scalar update of the whole arrays at
    entry `(1000 t + r, j)`: a node's update reads that node's rows and the weights only. -/
theorem dx_block (c : Dev nD) (t : Fin cfg0.N) (y : S1000x256.Idx) (k : S100000x256.Idx)
    (hk0 : (k 0).val = 1000 * t.val + (y 0).val) (hk1 : (k 1).val = (y 1).val) :
    Cert.Spec.dxArr (iblk m c 2 t : Vec Ideal S256x512 .f32) (iblk m c 3 t : Vec Ideal S512x256 .f32)
        (iblk m c 4 t : Vec Ideal S256 .f32) (iblk m c 5 t : Vec Ideal S256x768 .f32) (iblk m c 6 t : Vec Ideal S768 .f32)
        (iblk m c 0 t : Vec Ideal S1000x256 .f32) (iblk m c 1 t : Vec Ideal S1000x3x256 .f32) y
      = Cert.Spec.dxArr (V m c main_arg3 : S256x512.Idx → Elt Ideal .f32) (V m c main_arg4 : S512x256.Idx → Elt Ideal .f32)
          (V m c main_arg5 : S256.Idx → Elt Ideal .f32) (V m c main_arg6 : S256x768.Idx → Elt Ideal .f32)
          (V m c main_arg7 : S768.Idx → Elt Ideal .f32) (V m c main_arg0 : S100000x256.Idx → Elt Ideal .f32)
          (V m c main_arg1 : S100000x3x256.Idx → Elt Ideal .f32) k := by
  rw [We_block, W1_block, b1_block, W2_block, b2_block]
  show Cert.Spec.rowDx _ _ _ _ _ (Cert.Spec.xrow _ (y 0)) (Cert.Spec.vrow _ (y 0)) (y 1)
    = Cert.Spec.rowDx _ _ _ _ _ (Cert.Spec.xrow _ (k 0)) (Cert.Spec.vrow _ (k 0)) (k 1)
  exact congr (congr (congrArg (Cert.Spec.rowDx _ _ _ _ _) (xrow_block m c t (y 0) (k 0) hk0))
    (vrow_block m c t (y 0) (k 0) hk0)) (Fin.ext hk1.symm : (y 1 : Fin 256) = k 1)

/-- The vector update of the blocks at point `t`, at block entry `(r, s, j)`, is the vector update of the whole arrays
    at entry `(1000 t + r, s, j)`. -/
theorem dvec_block (c : Dev nD) (t : Fin cfg0.N) (y : S1000x3x256.Idx) (k : S100000x3x256.Idx)
    (hk0 : (k 0).val = 1000 * t.val + (y 0).val) (hk1 : (k 1).val = (y 1).val) (hk2 : (k 2).val = (y 2).val) :
    Cert.Spec.dvecArr (iblk m c 2 t : Vec Ideal S256x512 .f32) (iblk m c 3 t : Vec Ideal S512x256 .f32)
        (iblk m c 4 t : Vec Ideal S256 .f32) (iblk m c 5 t : Vec Ideal S256x768 .f32) (iblk m c 6 t : Vec Ideal S768 .f32)
        (iblk m c 0 t : Vec Ideal S1000x256 .f32) (iblk m c 1 t : Vec Ideal S1000x3x256 .f32) y
      = Cert.Spec.dvecArr (V m c main_arg3 : S256x512.Idx → Elt Ideal .f32) (V m c main_arg4 : S512x256.Idx → Elt Ideal .f32)
          (V m c main_arg5 : S256.Idx → Elt Ideal .f32) (V m c main_arg6 : S256x768.Idx → Elt Ideal .f32)
          (V m c main_arg7 : S768.Idx → Elt Ideal .f32) (V m c main_arg0 : S100000x256.Idx → Elt Ideal .f32)
          (V m c main_arg1 : S100000x3x256.Idx → Elt Ideal .f32) k := by
  rw [We_block, W1_block, b1_block, W2_block, b2_block]
  show Cert.Spec.rowDvec _ _ _ _ _ (Cert.Spec.xrow _ (y 0)) (Cert.Spec.vrow _ (y 0)) (y 1) (y 2)
    = Cert.Spec.rowDvec _ _ _ _ _ (Cert.Spec.xrow _ (k 0)) (Cert.Spec.vrow _ (k 0)) (k 1) (k 2)
  exact congr (congr (congr (congrArg (Cert.Spec.rowDvec _ _ _ _ _) (xrow_block m c t (y 0) (k 0) hk0))
    (vrow_block m c t (y 0) (k 0) hk0)) (Fin.ext hk1.symm : (y 1 : Fin 3) = k 1)) (Fin.ext hk2.symm : (y 2 : Fin 256) = k 2)

/-- WHAT POINT `t` WRITES BACK to the scalar-update array is block `t` of the scalar update of the argument arrays. -/
theorem flushed7_eq (c : Dev nD) (t : Fin cfg0.N) :
    (dats m 0 c).flushed 7 t = ((cfg0.win 7).blk t).view.read (Elt Ideal)
      (Cert.Spec.dxArr (V m c main_arg3 : S256x512.Idx → Elt Ideal .f32) (V m c main_arg4 : S512x256.Idx → Elt Ideal .f32)
          (V m c main_arg5 : S256.Idx → Elt Ideal .f32) (V m c main_arg6 : S256x768.Idx → Elt Ideal .f32)
          (V m c main_arg7 : S768.Idx → Elt Ideal .f32) (V m c main_arg0 : S100000x256.Idx → Elt Ideal .f32)
          (V m c main_arg1 : S100000x3x256.Idx → Elt Ideal .f32)) := by
  obtain ⟨-, -, -, -, -, -, -, ⟨e0, e1⟩, -⟩ := block_index t
  rw [Value.flushed7, Rows.out0_7_eq]
  funext y
  show Cert.Spec.dxArr (iblk m c 2 t : Vec Ideal S256x512 .f32) (iblk m c 3 t : Vec Ideal S512x256 .f32)
        (iblk m c 4 t : Vec Ideal S256 .f32) (iblk m c 5 t : Vec Ideal S256x768 .f32) (iblk m c 6 t : Vec Ideal S768 .f32)
        (iblk m c 0 t : Vec Ideal S1000x256 .f32) (iblk m c 1 t : Vec Ideal S1000x3x256 .f32)
        ((cfg0.win 7).xinj (grid0.coords t) y)
      = Cert.Spec.dxArr (V m c main_arg3 : S256x512.Idx → Elt Ideal .f32) (V m c main_arg4 : S512x256.Idx → Elt Ideal .f32)
          (V m c main_arg5 : S256.Idx → Elt Ideal .f32) (V m c main_arg6 : S256x768.Idx → Elt Ideal .f32)
          (V m c main_arg7 : S768.Idx → Elt Ideal .f32) (V m c main_arg0 : S100000x256.Idx → Elt Ideal .f32)
          (V m c main_arg1 : S100000x3x256.Idx → Elt Ideal .f32) (((cfg0.win 7).blk t).view.emb y)
  refine dx_block m c t _ _ ?_ ?_
  · show win0_7.index t 0 * 1000 + 1 * (y 0).val = 1000 * t.val + (y 0).val; rw [e0]; omega
  · show win0_7.index t 1 * 256 + 1 * (y 1).val = (y 1).val; rw [e1]; omega

/-- WHAT POINT `t` WRITES BACK to the vector-update array is block `t` of the vector update of the argument arrays. -/
theorem flushed8_eq (c : Dev nD) (t : Fin cfg0.N) :
    (dats m 0 c).flushed 8 t = ((cfg0.win 8).blk t).view.read (Elt Ideal)
      (Cert.Spec.dvecArr (V m c main_arg3 : S256x512.Idx → Elt Ideal .f32) (V m c main_arg4 : S512x256.Idx → Elt Ideal .f32)
          (V m c main_arg5 : S256.Idx → Elt Ideal .f32) (V m c main_arg6 : S256x768.Idx → Elt Ideal .f32)
          (V m c main_arg7 : S768.Idx → Elt Ideal .f32) (V m c main_arg0 : S100000x256.Idx → Elt Ideal .f32)
          (V m c main_arg1 : S100000x3x256.Idx → Elt Ideal .f32)) := by
  obtain ⟨-, -, -, -, -, -, -, -, ⟨e0, e1, e2⟩⟩ := block_index t
  rw [Value.flushed8, Rows.out0_8_eq]
  funext y
  show Cert.Spec.dvecArr (iblk m c 2 t : Vec Ideal S256x512 .f32) (iblk m c 3 t : Vec Ideal S512x256 .f32)
        (iblk m c 4 t : Vec Ideal S256 .f32) (iblk m c 5 t : Vec Ideal S256x768 .f32) (iblk m c 6 t : Vec Ideal S768 .f32)
        (iblk m c 0 t : Vec Ideal S1000x256 .f32) (iblk m c 1 t : Vec Ideal S1000x3x256 .f32)
        ((cfg0.win 8).xinj (grid0.coords t) y)
      = Cert.Spec.dvecArr (V m c main_arg3 : S256x512.Idx → Elt Ideal .f32) (V m c main_arg4 : S512x256.Idx → Elt Ideal .f32)
          (V m c main_arg5 : S256.Idx → Elt Ideal .f32) (V m c main_arg6 : S256x768.Idx → Elt Ideal .f32)
          (V m c main_arg7 : S768.Idx → Elt Ideal .f32) (V m c main_arg0 : S100000x256.Idx → Elt Ideal .f32)
          (V m c main_arg1 : S100000x3x256.Idx → Elt Ideal .f32) (((cfg0.win 8).blk t).view.emb y)
  refine dvec_block m c t _ _ ?_ ?_ ?_
  · show win0_8.index t 0 * 1000 + 1 * (y 0).val = 1000 * t.val + (y 0).val; rw [e0]; omega
  · show win0_8.index t 1 * 3 + 1 * (y 1).val = (y 1).val; rw [e1]; omega
  · show win0_8.index t 2 * 256 + 1 * (y 2).val = (y 2).val; rw [e2]; omega

/-! ## The blocks tile the result arrays -/

/-- An entry of the scalar-update array is in point `t`'s block iff each coordinate is in the block's range on its axis. -/
theorem mem_block7 (t : Fin cfg0.N) (i : S100000x256.Idx) :
    i ∈ ((cfg0.win 7).blk t).view.set ↔ ∀ a : Fin 2, win0_7.index t a * S1000x256.size a ≤ (i a).val
      ∧ (i a).val < win0_7.index t a * S1000x256.size a + S1000x256.size a := by
  show i ∈ ((View.whole main_v0_0).slice (win0_7.rect t)).set ↔ _
  rw [View.set_slice_whole, Rect.mem_set_unit]
  exact Iff.rfl

/-- An entry of the vector-update array is in point `t`'s block iff each coordinate is in the block's range on its axis. -/
theorem mem_block8 (t : Fin cfg0.N) (i : S100000x3x256.Idx) :
    i ∈ ((cfg0.win 8).blk t).view.set ↔ ∀ a : Fin 3, win0_8.index t a * S1000x3x256.size a ≤ (i a).val
      ∧ (i a).val < win0_8.index t a * S1000x3x256.size a + S1000x3x256.size a := by
  show i ∈ ((View.whole main_v0_1).slice (win0_8.rect t)).set ↔ _
  rw [View.set_slice_whole, Rect.mem_set_unit]
  exact Iff.rfl

/-- Row `n` of the scalar-update array is written by point `n / 1000`. -/
theorem cover7 (i : S100000x256.Idx) :
    ∃ t : Fin cfg0.N, (cfg0.win 7).flush t = true ∧ i ∈ ((cfg0.win 7).blk t).view.set := by
  have hi0 : (i 0).val < 100000 := (i 0).isLt
  have hi1 : (i 1).val < 256 := (i 1).isLt
  obtain ⟨t, ht⟩ : ∃ t : Fin cfg0.N, t.val = (i 0).val / 1000 := ⟨⟨(i 0).val / 1000, by show _ < 100; omega⟩, rfl⟩
  obtain ⟨-, -, -, -, -, -, -, ⟨e0, e1⟩, -⟩ := block_index t
  refine ⟨t, flush0_7 t, ?_⟩
  rw [mem_block7]
  intro a
  match a with
  | ⟨0, _⟩ => show win0_7.index t 0 * 1000 ≤ (i 0).val ∧ (i 0).val < win0_7.index t 0 * 1000 + 1000; rw [e0, ht]; omega
  | ⟨1, _⟩ => show win0_7.index t 1 * 256 ≤ (i 1).val ∧ (i 1).val < win0_7.index t 1 * 256 + 256; rw [e1]; omega

/-- Row `n` of the vector-update array is written by point `n / 1000`. -/
theorem cover8 (i : S100000x3x256.Idx) :
    ∃ t : Fin cfg0.N, (cfg0.win 8).flush t = true ∧ i ∈ ((cfg0.win 8).blk t).view.set := by
  have hi0 : (i 0).val < 100000 := (i 0).isLt
  have hi1 : (i 1).val < 3 := (i 1).isLt
  have hi2 : (i 2).val < 256 := (i 2).isLt
  obtain ⟨t, ht⟩ : ∃ t : Fin cfg0.N, t.val = (i 0).val / 1000 := ⟨⟨(i 0).val / 1000, by show _ < 100; omega⟩, rfl⟩
  obtain ⟨-, -, -, -, -, -, -, -, ⟨e0, e1, e2⟩⟩ := block_index t
  refine ⟨t, flush0_8 t, ?_⟩
  rw [mem_block8]
  intro a
  match a with
  | ⟨0, _⟩ => show win0_8.index t 0 * 1000 ≤ (i 0).val ∧ (i 0).val < win0_8.index t 0 * 1000 + 1000; rw [e0, ht]; omega
  | ⟨1, _⟩ => show win0_8.index t 1 * 3 ≤ (i 1).val ∧ (i 1).val < win0_8.index t 1 * 3 + 3; rw [e1]; omega
  | ⟨2, _⟩ => show win0_8.index t 2 * 256 ≤ (i 2).val ∧ (i 2).val < win0_8.index t 2 * 256 + 256; rw [e2]; omega

/-! ## The arrays after the run -/

/-- The scalar-update array after the last point: the scalar update of the argument arrays. -/
theorem final7 (c : Dev nD) : (dats m 0 c).arrAt 7 cfg0.N
    = Cert.Spec.dxArr (V m c main_arg3 : S256x512.Idx → Elt Ideal .f32) (V m c main_arg4 : S512x256.Idx → Elt Ideal .f32)
        (V m c main_arg5 : S256.Idx → Elt Ideal .f32) (V m c main_arg6 : S256x768.Idx → Elt Ideal .f32)
        (V m c main_arg7 : S768.Idx → Elt Ideal .f32) (V m c main_arg0 : S100000x256.Idx → Elt Ideal .f32)
        (V m c main_arg1 : S100000x3x256.Idx → Elt Ideal .f32) :=
  (dats m 0 c).arrAt_eq_of_cover 7 _ (fun t _ => flushed7_eq m c t) cover7

/-- The vector-update array after the last point: the vector update of the argument arrays. -/
theorem final8 (c : Dev nD) : (dats m 0 c).arrAt 8 cfg0.N
    = Cert.Spec.dvecArr (V m c main_arg3 : S256x512.Idx → Elt Ideal .f32) (V m c main_arg4 : S512x256.Idx → Elt Ideal .f32)
        (V m c main_arg5 : S256.Idx → Elt Ideal .f32) (V m c main_arg6 : S256x768.Idx → Elt Ideal .f32)
        (V m c main_arg7 : S768.Idx → Elt Ideal .f32) (V m c main_arg0 : S100000x256.Idx → Elt Ideal .f32)
        (V m c main_arg1 : S100000x3x256.Idx → Elt Ideal .f32) :=
  (dats m 0 c).arrAt_eq_of_cover 8 _ (fun t _ => flushed8_eq m c t) cover8

/-- THE RUN, READ: both result arrays are the node map of the argument arrays, and every argument array is as launched. -/
theorem run : θ_run defs (onTc (τ := τ) (main (F := Ideal))) ⟨m, fun _ => 0, ρ⟩ fun r => ∀ c : Dev nD,
      r.2.mem ((c : Thread nD τ).loc main_v0_0) = Cert.Spec.dxArr (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1))
      ∧ r.2.mem ((c : Thread nD τ).loc main_v0_1) = Cert.Spec.dvecArr (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final7 m c), (h c).2.1.trans (final8 m c), (h c).2.2⟩)
    (Value.run_blocks m ρ)

end Cert.KernelIdeal.Blocks

end
-- ==== Proof.RefRow.lean ====
/- The reference program read as the specification.

   The reference computes the layer on whole arrays, one operation at a time: a projection of every spatial
   component of every node by `We`, its two halves, the norm and the inner product over the three spatial
   components, the row of scalar features followed by the norms, two dense layers with the SiLU between them,
   the three groups of the second layer's 768 channels, and the two updates. Each lemma below reads one of these
   arrays at the coordinates of one node `n` (and a spatial component `c`, a channel `j`, `k` or `q`) and
   says that the entry is the corresponding function of row `n` in the specification. An entry of a contraction
   is a finite sum whose terms are entries of the layer below at the same node, so every lemma follows from the
   lemma of the layer below. No algebraic law is needed beyond `0 + a = a`: the two sides are the same
   expression tree, the reference spelling `logistic` as `1 / (1 + exp (-x))` (its definition, the word
   `0x3F800000` being 1) and the sum over the three spatial components as `0 + (t₀ + t₁ + t₂)` (the initial
   value being the zero word). -/
import proofs.«144188_j42949673220_1_alg».proof.Proof.Gen.ReferenceIdeal.Read
import proofs.«144188_j42949673220_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Rows

open Cert.ReferenceIdeal Cert.ReferenceIdeal.Read Idealize.ShloMosaic Idealize.ShloMosaic.ValueIdx

variable (x0 : (⟨S100000x256, .f32⟩ : BufTy).Contents (Elt Ideal))
  (x1 : (⟨S100000x3x256, .f32⟩ : BufTy).Contents (Elt Ideal))
  (x3 : (⟨S256x512, .f32⟩ : BufTy).Contents (Elt Ideal))
  (x4 : (⟨S512x256, .f32⟩ : BufTy).Contents (Elt Ideal))
  (x5 : (⟨S256, .f32⟩ : BufTy).Contents (Elt Ideal))
  (x6 : (⟨S256x768, .f32⟩ : BufTy).Contents (Elt Ideal))
  (x7 : (⟨S768, .f32⟩ : BufTy).Contents (Elt Ideal))

/-- The projection: component `c` of node `n`, channel `k`, is row `(n, c)` of the vector features times
    column `k` of `We`. -/
theorem v0_at (n : Fin 100000) (c : Fin 3) (k : Fin 512) :
    val_main_v0 (F := Ideal) x1 x3 (ix3 n c k) = Cert.Spec.proj x3 (Cert.Spec.vrow x1 n c) k := by
  refine (val_main_v0_apply x1 x3 (ix3 n c k)).trans ?_
  unfold Cert.Spec.proj Cert.Spec.vrow
  refine Finset.sum_congr rfl fun h _ => ?_
  have el : lidx_main_v0 (ix3 n c k) h = ix3 n c h :=
    funext fun a => by match a with | ⟨0, _⟩ => rfl | ⟨1, _⟩ => rfl | ⟨2, _⟩ => rfl
  have er : ridx_main_v0 (ix3 n c k) h = ix2 h k :=
    funext fun a => by match a with | ⟨0, _⟩ => rfl | ⟨1, _⟩ => rfl
  rw [el, er]

/-- The first half of the projected channels. -/
theorem v1_at (n : Fin 100000) (c : Fin 3) (j : Fin 256) :
    val_main_v1 (F := Ideal) x1 x3 (ix3 n c j) = Cert.Spec.proj x3 (Cert.Spec.vrow x1 n c) (Cert.Spec.lo j) := by
  refine (val_main_v1_apply x1 x3 (ix3 n c j)).trans ?_
  have e : idx_main_v1 (ix3 n c j) = ix3 n c (Cert.Spec.lo j) :=
    funext fun a => by match a with | ⟨0, _⟩ => rfl | ⟨1, _⟩ => rfl | ⟨2, _⟩ => rfl
  rw [e]
  exact v0_at x1 x3 n c (Cert.Spec.lo j)

/-- The second half of the projected channels. -/
theorem v2_at (n : Fin 100000) (c : Fin 3) (j : Fin 256) :
    val_main_v2 (F := Ideal) x1 x3 (ix3 n c j) = Cert.Spec.proj x3 (Cert.Spec.vrow x1 n c) (Cert.Spec.hi j) := by
  refine (val_main_v2_apply x1 x3 (ix3 n c j)).trans ?_
  have e : idx_main_v2 (ix3 n c j) = ix3 n c (Cert.Spec.hi j) :=
    funext fun a => by match a with | ⟨0, _⟩ => rfl | ⟨1, _⟩ => rfl | ⟨2, _⟩ => rfl
  rw [e]
  exact v0_at x1 x3 n c (Cert.Spec.hi j)

/-- The square of a channel of the first projected half. -/
theorem call0_v0_at (n : Fin 100000) (c : Fin 3) (j : Fin 256) :
    val_main_call0_v0 (F := Ideal) x1 x3 (ix3 n c j)
      = Cert.Spec.proj x3 (Cert.Spec.vrow x1 n c) (Cert.Spec.lo j)
        * Cert.Spec.proj x3 (Cert.Spec.vrow x1 n c) (Cert.Spec.lo j) := by
  refine (val_main_call0_v0_apply x1 x3 (ix3 n c j)).trans ?_
  rw [v1_at x1 x3 n c j, Ideal.mulf_def]

/-- The norm over the three spatial components: the reference's sum over the component axis starts from the
    zero word and has three terms. -/
theorem v3_at (n : Fin 100000) (j : Fin 256) :
    val_main_v3 (F := Ideal) x1 x3 (ix2 n j) = Cert.Spec.scalar x3 (Cert.Spec.vrow x1 n) j := by
  refine (val_main_v3_apply x1 x3 (ix2 n j)).trans ?_
  rw [Ideal.hostUnary_sqrt_def]
  unfold Cert.Spec.scalar
  refine congrArg Ideal.sqrt ?_
  refine (val_main_call0_v1_apply x1 x3 (ix2 n j)).trans ?_
  have e : ∀ k : Fin 3, idx_main_call0_v1 (ix2 n j) k = ix3 n k j := fun k =>
    funext fun a => by match a with | ⟨0, _⟩ => rfl | ⟨1, _⟩ => rfl | ⟨2, _⟩ => rfl
  rw [val_main_call0_cst_apply, Ideal.ofBits_def, Ideal.ofBits_zero_f32, zero_add, Fin.sum_univ_three,
    e 0, e 1, e 2, call0_v0_at x1 x3 n 0 j, call0_v0_at x1 x3 n 1 j, call0_v0_at x1 x3 n 2 j]

/-- The product of a channel of the first projected half with the same channel of the second half. -/
theorem v4_at (n : Fin 100000) (c : Fin 3) (j : Fin 256) :
    val_main_v4 (F := Ideal) x1 x3 (ix3 n c j)
      = Cert.Spec.proj x3 (Cert.Spec.vrow x1 n c) (Cert.Spec.lo j)
        * Cert.Spec.proj x3 (Cert.Spec.vrow x1 n c) (Cert.Spec.hi j) := by
  refine (val_main_v4_apply x1 x3 (ix3 n c j)).trans ?_
  rw [v1_at x1 x3 n c j, v2_at x1 x3 n c j, Ideal.mulf_def]

/-- The scaled inner product over the three spatial components. -/
theorem v7_at (n : Fin 100000) (j : Fin 256) :
    val_main_v7 (F := Ideal) x1 x3 (ix2 n j) = Cert.Spec.vdot x3 (Cert.Spec.vrow x1 n) j := by
  refine (val_main_v7_apply x1 x3 (ix2 n j)).trans ?_
  rw [Ideal.mulf_def, val_main_v6_apply, val_main_cst_0_apply, Ideal.ofBits_def]
  unfold Cert.Spec.vdot
  refine congrArg (· * Ideal.ofBits .f32 0x3D800000#32) ?_
  refine (val_main_v5_apply x1 x3 (ix2 n j)).trans ?_
  have e : ∀ k : Fin 3, idx_main_v5 (ix2 n j) k = ix3 n k j := fun k =>
    funext fun a => by match a with | ⟨0, _⟩ => rfl | ⟨1, _⟩ => rfl | ⟨2, _⟩ => rfl
  rw [val_main_cst_apply, Ideal.ofBits_def, Ideal.ofBits_zero_f32, zero_add, Fin.sum_univ_three,
    e 0, e 1, e 2, v4_at x1 x3 n 0 j, v4_at x1 x3 n 1 j, v4_at x1 x3 n 2 j]

/-- The input row of the first dense layer: a channel below 256 is the scalar feature, a channel from 256 on is
    the norm of the channel 256 lower. -/
theorem v8_at (n : Fin 100000) (k : Fin 512) :
    val_main_v8 (F := Ideal) x0 x1 x3 (ix2 n k)
      = Cert.Spec.hin x3 (Cert.Spec.xrow x0 n) (Cert.Spec.vrow x1 n) k := by
  unfold val_main_v8 Cert.Spec.hin
  by_cases h : k.val < 256
  · rw [dif_pos h]
    exact concatenate_pair_apply_left (1 : Fin S100000x512.rank) x0 (val_main_v3 (F := Ideal) x1 x3) _
      (ix2 n k) rfl (ix2 n ⟨k.val, h⟩) (fun b => by match b with | ⟨0, _⟩ => rfl | ⟨1, _⟩ => rfl)
  · rw [dif_neg h]
    have hk : k.val - 256 < 256 := by have := k.isLt; omega
    refine (concatenate_pair_apply_right (1 : Fin S100000x512.rank) x0 (val_main_v3 (F := Ideal) x1 x3) _
      (ix2 n k) rfl rfl (ix2 n ⟨k.val - 256, hk⟩)
      (fun b hb => by
        match b, hb with
        | ⟨0, _⟩, _ => rfl
        | ⟨1, _⟩, hb => exact absurd rfl hb)
      (by show (k.val - 256) + 256 = k.val; omega)).trans ?_
    exact v3_at x1 x3 n ⟨k.val - 256, hk⟩

/-- The first dense layer before its activation: the contraction over the 512 input channels plus the bias. -/
theorem v12_at (n : Fin 100000) (j : Fin 256) :
    val_main_v12 (F := Ideal) x0 x1 x3 x4 x5 (ix2 n j)
      = Cert.Spec.pre1 x3 x4 x5 (Cert.Spec.xrow x0 n) (Cert.Spec.vrow x1 n) j := by
  refine (val_main_v12_apply x0 x1 x3 x4 x5 (ix2 n j)).trans ?_
  rw [Ideal.addf_def]
  unfold Cert.Spec.pre1
  refine congrArg₂ (· + ·) ?_ ?_
  · refine (val_main_v9_apply x0 x1 x3 x4 (ix2 n j)).trans ?_
    refine Finset.sum_congr rfl fun k _ => ?_
    have el : lidx_main_v9 (ix2 n j) k = ix2 n k :=
      funext fun a => by match a with | ⟨0, _⟩ => rfl | ⟨1, _⟩ => rfl
    have er : ridx_main_v9 (ix2 n j) k = ix2 k j :=
      funext fun a => by match a with | ⟨0, _⟩ => rfl | ⟨1, _⟩ => rfl
    rw [el, er, v8_at x0 x1 x3 n k]
  · rw [val_main_v11_apply, val_main_v10_apply]
    exact congrArg x5 (funext fun a => by match a with | ⟨0, _⟩ => rfl)

/-- The word of 1. -/
theorem one_word : Ideal.ofBits .f32 0x3F800000#32 = 1 := IdealRules.sign_bit.ideal_onePat .f32

/-- The SiLU: the reference spells the logistic function as `1 / (1 + exp (-x))`, which is its definition. -/
theorem v13_at (n : Fin 100000) (j : Fin 256) :
    val_main_v13 (F := Ideal) x0 x1 x3 x4 x5 (ix2 n j)
      = Cert.Spec.act x3 x4 x5 (Cert.Spec.xrow x0 n) (Cert.Spec.vrow x1 n) j := by
  refine (val_main_v13_apply x0 x1 x3 x4 x5 (ix2 n j)).trans ?_
  unfold Cert.Spec.act Ideal.logistic
  rw [val_main_call1_v5_apply, val_main_call1_v4_apply, val_main_call1_cst_0_apply, val_main_call1_v3_apply,
    val_main_call1_v2_apply, val_main_call1_cst_apply, val_main_call1_v1_apply, val_main_call1_v0_apply,
    v12_at x0 x1 x3 x4 x5 n j, Ideal.mulf_def, Ideal.hostDivf_def, Ideal.addf_def, Ideal.hostUnary_exp_def,
    Ideal.hostNegf_def, Ideal.negf_def, Ideal.ofBits_def, one_word]

/-- The second dense layer: the contraction over the 256 activated channels plus the bias. -/
theorem v17_at (n : Fin 100000) (q : Fin 768) :
    val_main_v17 (F := Ideal) x0 x1 x3 x4 x5 x6 x7 (ix2 n q)
      = Cert.Spec.xvh x3 x4 x5 x6 x7 (Cert.Spec.xrow x0 n) (Cert.Spec.vrow x1 n) q := by
  refine (val_main_v17_apply x0 x1 x3 x4 x5 x6 x7 (ix2 n q)).trans ?_
  rw [Ideal.addf_def]
  unfold Cert.Spec.xvh
  refine congrArg₂ (· + ·) ?_ ?_
  · refine (val_main_v14_apply x0 x1 x3 x4 x5 x6 (ix2 n q)).trans ?_
    refine Finset.sum_congr rfl fun k _ => ?_
    have el : lidx_main_v14 (ix2 n q) k = ix2 n k :=
      funext fun a => by match a with | ⟨0, _⟩ => rfl | ⟨1, _⟩ => rfl
    have er : ridx_main_v14 (ix2 n q) k = ix2 k q :=
      funext fun a => by match a with | ⟨0, _⟩ => rfl | ⟨1, _⟩ => rfl
    rw [el, er, v13_at x0 x1 x3 x4 x5 n k]
  · rw [val_main_v16_apply, val_main_v15_apply]
    exact congrArg x7 (funext fun a => by match a with | ⟨0, _⟩ => rfl)

/-- The first group of 256 of the second layer's channels. -/
theorem v18_at (n : Fin 100000) (j : Fin 256) :
    val_main_v18 (F := Ideal) x0 x1 x3 x4 x5 x6 x7 (ix2 n j)
      = Cert.Spec.xvh x3 x4 x5 x6 x7 (Cert.Spec.xrow x0 n) (Cert.Spec.vrow x1 n) (Cert.Spec.g0 j) := by
  refine (val_main_v18_apply x0 x1 x3 x4 x5 x6 x7 (ix2 n j)).trans ?_
  have e : idx_main_v18 (ix2 n j) = ix2 n (Cert.Spec.g0 j) :=
    funext fun a => by match a with | ⟨0, _⟩ => rfl | ⟨1, _⟩ => rfl
  rw [e]
  exact v17_at x0 x1 x3 x4 x5 x6 x7 n (Cert.Spec.g0 j)

/-- The second group. -/
theorem v19_at (n : Fin 100000) (j : Fin 256) :
    val_main_v19 (F := Ideal) x0 x1 x3 x4 x5 x6 x7 (ix2 n j)
      = Cert.Spec.xvh x3 x4 x5 x6 x7 (Cert.Spec.xrow x0 n) (Cert.Spec.vrow x1 n) (Cert.Spec.g1 j) := by
  refine (val_main_v19_apply x0 x1 x3 x4 x5 x6 x7 (ix2 n j)).trans ?_
  have e : idx_main_v19 (ix2 n j) = ix2 n (Cert.Spec.g1 j) :=
    funext fun a => by match a with | ⟨0, _⟩ => rfl | ⟨1, _⟩ => rfl
  rw [e]
  exact v17_at x0 x1 x3 x4 x5 x6 x7 n (Cert.Spec.g1 j)

/-- The third group. -/
theorem v20_at (n : Fin 100000) (j : Fin 256) :
    val_main_v20 (F := Ideal) x0 x1 x3 x4 x5 x6 x7 (ix2 n j)
      = Cert.Spec.xvh x3 x4 x5 x6 x7 (Cert.Spec.xrow x0 n) (Cert.Spec.vrow x1 n) (Cert.Spec.g2 j) := by
  refine (val_main_v20_apply x0 x1 x3 x4 x5 x6 x7 (ix2 n j)).trans ?_
  have e : idx_main_v20 (ix2 n j) = ix2 n (Cert.Spec.g2 j) :=
    funext fun a => by match a with | ⟨0, _⟩ => rfl | ⟨1, _⟩ => rfl
  rw [e]
  exact v17_at x0 x1 x3 x4 x5 x6 x7 n (Cert.Spec.g2 j)

/-- The scalar update: the first two groups and the inner product, scaled. -/
theorem v24_at (n : Fin 100000) (j : Fin 256) :
    val_main_v24 (F := Ideal) x0 x1 x3 x4 x5 x6 x7 (ix2 n j)
      = Cert.Spec.rowDx x3 x4 x5 x6 x7 (Cert.Spec.xrow x0 n) (Cert.Spec.vrow x1 n) j := by
  refine (val_main_v24_apply x0 x1 x3 x4 x5 x6 x7 (ix2 n j)).trans ?_
  unfold Cert.Spec.rowDx
  rw [val_main_v23_apply, val_main_cst_1_apply, val_main_v22_apply, val_main_v21_apply,
    v18_at x0 x1 x3 x4 x5 x6 x7 n j, v19_at x0 x1 x3 x4 x5 x6 x7 n j, v7_at x1 x3 n j,
    Ideal.mulf_def, Ideal.addf_def, Ideal.addf_def, Ideal.ofBits_def]

/-- The vector update: the third group, the same for the three spatial components, times the second projected
    half of the component. -/
theorem v27_at (n : Fin 100000) (c : Fin 3) (j : Fin 256) :
    val_main_v27 (F := Ideal) x0 x1 x3 x4 x5 x6 x7 (ix3 n c j)
      = Cert.Spec.rowDvec x3 x4 x5 x6 x7 (Cert.Spec.xrow x0 n) (Cert.Spec.vrow x1 n) c j := by
  refine (val_main_v27_apply x0 x1 x3 x4 x5 x6 x7 (ix3 n c j)).trans ?_
  unfold Cert.Spec.rowDvec
  have e : idx_main_v25 (idx_main_v26 (ix3 n c j)) = ix2 n j :=
    funext fun a => by match a with | ⟨0, _⟩ => rfl | ⟨1, _⟩ => rfl
  rw [val_main_v26_apply, val_main_v25_apply, e, v20_at x0 x1 x3 x4 x5 x6 x7 n j, v2_at x1 x3 n c j,
    Ideal.mulf_def]

/-- The reference's scalar update is the specification's array. -/
theorem val_main_v24_spec (x0 : (⟨S100000x256, .f32⟩ : BufTy).Contents (Elt Ideal))
    (x1 : (⟨S100000x3x256, .f32⟩ : BufTy).Contents (Elt Ideal))
    (x3 : (⟨S256x512, .f32⟩ : BufTy).Contents (Elt Ideal))
    (x4 : (⟨S512x256, .f32⟩ : BufTy).Contents (Elt Ideal))
    (x5 : (⟨S256, .f32⟩ : BufTy).Contents (Elt Ideal))
    (x6 : (⟨S256x768, .f32⟩ : BufTy).Contents (Elt Ideal))
    (x7 : (⟨S768, .f32⟩ : BufTy).Contents (Elt Ideal)) :
    val_main_v24 (F := Ideal) x0 x1 x3 x4 x5 x6 x7 = Cert.Spec.dxArr x3 x4 x5 x6 x7 x0 x1 := by
  funext i
  obtain ⟨n, j, rfl⟩ : ∃ (n : Fin 100000) (j : Fin 256), i = ix2 n j := ⟨i 0, i 1, eq_ix2 i⟩
  rw [Cert.Spec.dxArr_ix2]
  exact v24_at x0 x1 x3 x4 x5 x6 x7 n j

/-- The reference's vector update is the specification's array. -/
theorem val_main_v27_spec (x0 : (⟨S100000x256, .f32⟩ : BufTy).Contents (Elt Ideal))
    (x1 : (⟨S100000x3x256, .f32⟩ : BufTy).Contents (Elt Ideal))
    (x3 : (⟨S256x512, .f32⟩ : BufTy).Contents (Elt Ideal))
    (x4 : (⟨S512x256, .f32⟩ : BufTy).Contents (Elt Ideal))
    (x5 : (⟨S256, .f32⟩ : BufTy).Contents (Elt Ideal))
    (x6 : (⟨S256x768, .f32⟩ : BufTy).Contents (Elt Ideal))
    (x7 : (⟨S768, .f32⟩ : BufTy).Contents (Elt Ideal)) :
    val_main_v27 (F := Ideal) x0 x1 x3 x4 x5 x6 x7 = Cert.Spec.dvecArr x3 x4 x5 x6 x7 x0 x1 := by
  funext i
  obtain ⟨n, c, j, rfl⟩ : ∃ (n : Fin 100000) (c : Fin 3) (j : Fin 256), i = ix3 n c j :=
    ⟨i 0, i 1, i 2, eq_ix3 i⟩
  rw [Cert.Spec.dvecArr_ix3]
  exact v27_at x0 x1 x3 x4 x5 x6 x7 n c j

end Cert.ReferenceIdeal.Rows

end
-- ==== Proof.lean ====
/- The layer update of 100000 nodes: a kernel that walks the nodes in 100 blocks of 1000 rows against a whole-array
   reference, equal over the extended reals.

   Per node, from its 256 scalar features and its 3 x 256 vector features: every spatial component is projected to
   512 channels (a first half c and a second half d); the norm of c and the inner product of c with d are taken over
   the three spatial components; the scalar features followed by the norms go through two dense layers with a SiLU
   between them; of the 768 channels that come out, the first two groups and the scaled inner product make the scalar
   update and the third group multiplies d to make the vector update (Proof/Spec.lean states this map, one node at a
   time, and the arrays it gives).

   Both programs compute exactly that map. A node's update depends on that node's rows and on the weights only, so a
   block of 1000 rows of the result is the map of the block of 1000 rows of the features: the kernel's body is read row by
   row (Proof/KernelProj.lean, KernelDense.lean, KernelRow.lean), its blocks are put side by side to fill the two result
   arrays (Proof/Blocks.lean), and the reference is read layer by layer at the coordinates of one node
   (Proof/RefRow.lean). The two sides are the same expression at every node: the contractions are the same finite sums
   (a matrix product into a zero accumulator on one side, a general product on the other; the change of float format in
   front of the kernel's products is the identity on the extended reals), the logistic function is written out as
   1 / (1 + exp (-x)) by the reference, and its sums over the three spatial components start from zero. No law that
   needs finite operands is used, so the precondition is never opened.

   The three frames are the generated ones (the reference's is its generated run with the results dropped); the kernel is
   its own idealization (no rewrite was applied), so that conjunct is trivial. -/
import proofs.«144188_j42949673220_1_alg».proof.Defs
import proofs.«144188_j42949673220_1_alg».proof.Proof.Gen.Kernel
import proofs.«144188_j42949673220_1_alg».proof.Proof.Gen.Kernel.Skeleton
import proofs.«144188_j42949673220_1_alg».proof.Proof.Gen.Kernel.Launch
import proofs.«144188_j42949673220_1_alg».proof.Proof.Gen.Kernel.Points
import proofs.«144188_j42949673220_1_alg».proof.Proof.Gen.Kernel.Frame
import proofs.«144188_j42949673220_1_alg».proof.Proof.Gen.KernelIdeal
import proofs.«144188_j42949673220_1_alg».proof.Proof.Gen.KernelIdeal.Skeleton
import proofs.«144188_j42949673220_1_alg».proof.Proof.Gen.KernelIdeal.Launch
import proofs.«144188_j42949673220_1_alg».proof.Proof.Gen.KernelIdeal.Points
import proofs.«144188_j42949673220_1_alg».proof.Proof.Gen.KernelIdeal.Frame
import proofs.«144188_j42949673220_1_alg».proof.Proof.Gen.ReferenceIdeal
import proofs.«144188_j42949673220_1_alg».proof.Proof.Gen.Pre_finite_inputs
import proofs.«144188_j42949673220_1_alg».proof.Proof.Gen.KernelIdeal.Value
import proofs.«144188_j42949673220_1_alg».proof.Proof.Gen.ReferenceIdeal.Run
import proofs.«144188_j42949673220_1_alg».proof.Proof.Gen.ReferenceIdeal.Read
import proofs.«144188_j42949673220_1_alg».proof.Proof.Blocks
import proofs.«144188_j42949673220_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as they were: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the node map of the argument arrays in their two result arrays: the kernel block by block,
    the reference layer by layer; the argument arrays of the two runs agree. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v24_eq, Cert.ReferenceIdeal.Rows.val_main_v24_spec, h0, h1, h3, h4, h5, h6, h7]
  · obtain ⟨h0, h1, h2, h3, h4, h5, h6, h7⟩ := hagree c
    refine ((Cert.ReferenceIdeal.Read.val_main_v27_eq _ _ _ _ _ _ _).trans
      (Cert.ReferenceIdeal.Rows.val_main_v27_spec _ _ _ _ _ _ _)).trans ?_
    rw [h0, h1, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
